-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S2x600000 : Shape := ⟨2, ![2, 600000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S2x600000 : S_.BroadcastsInDim S2x600000 (![] : Fin 0 → Fin S2x600000.rank)
  reducesTo_S2x600000_S_d0_1 : S2x600000.ReducesTo [0, 1] S_

variable [Facts]

def fn_part3 {F : FTy → Type} [FloatOps F] (main_arg2 : IVec S2x600000 32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_c_22 : IVec S_ 32 := constantI S_ 32 0#32
  let main_v59 : IVec S2x600000 32 := broadcastInDim S2x600000 ![] bcast_S_S2x600000 main_c_22
  let main_v60 : IVec S2x600000 1 := cmpi .sge main_arg2 main_v59
  let main_c_23 : IVec S_ 1 := constantI S_ 1 1#1
  let main_v61 : IVec S_ 1 := (fun x v => Host.reduce IntOp.andi x v reducesTo_S2x600000_S_d0_1 h_S_) main_v60 main_c_23
  let main_v62 : IVec S_ 1 := andi main_v58 main_v61
  let main_c_24 : IVec S_ 32 := constantI S_ 32 50000#32
  let main_v63 : IVec S2x600000 32 := broadcastInDim S2x600000 ![] bcast_S_S2x600000 main_c_24
  let main_v64 : IVec S2x600000 1 := cmpi .slt main_arg2 main_v63
  let main_c_25 : IVec S_ 1 := constantI S_ 1 1#1
  let main_v65 : IVec S_ 1 := (fun x v => Host.reduce IntOp.andi x v reducesTo_S2x600000_S_d0_1 h_S_) main_v64 main_c_25
  let main_v66 : IVec S_ 1 := andi main_v62 main_v65
  main_v66

def fn_part2 {F : FTy → Type} [FloatOps F] (main_arg2 : IVec S2x600000 32) (main_arg8 : FVec F S128 .f32) (main_arg9 : FVec F S128x128 .f32) (main_arg10 : FVec F S128 .f32) (main_arg11 : FVec F S128 .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg2 main_arg12 main_v48 main_v49 main_v50

def fn_part1 {F : FTy → Type} [FloatOps F] (main_arg2 : IVec S2x600000 32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg2 main_arg8 main_arg9 main_arg10 main_arg11 main_arg12 main_v33

def fn {F : FTy → Type} [FloatOps F] (main_arg0 : FVec F S50000x128 .f32) (main_arg1 : FVec F S600000x128 .f32) (main_arg2 : IVec S2x600000 32) (main_arg3 : FVec F S384x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_v13 main_v16
-- ==== Kernel.lean ====
abbrev S50000x128 : Shape := ⟨2, ![50000, 128]⟩
abbrev S600000x128 : Shape := ⟨2, ![600000, 128]⟩
abbrev S2x600000 : Shape := ⟨2, ![2, 600000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S1x128 : Shape := ⟨2, ![1, 128]⟩
abbrev S3000x128 : Shape := ⟨2, ![3000, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 80
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S2x600000, .i32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S1, .i32⟩
  | .hbm, ⟨26, _⟩ => ⟨S_, .i32⟩
  | .hbm, ⟨27, _⟩ => ⟨S600000x1, .i32⟩
  | .hbm, ⟨28, _⟩ => ⟨S600000x1, .i1⟩
  | .hbm, ⟨29, _⟩ => ⟨S1x1, .i32⟩
  | .hbm, ⟨30, _⟩ => ⟨S600000x1, .i32⟩
  | .hbm, ⟨31, _⟩ => ⟨S600000x1, .i1⟩
  | .hbm, ⟨32, _⟩ => ⟨S600000x1, .i1⟩
  | .hbm, ⟨33, _⟩ => ⟨S_, .i1⟩
  | .hbm, ⟨34, _⟩ => ⟨S600000, .i1⟩
  | .hbm, ⟨35, _⟩ => ⟨S600000x128, .f32⟩
  | .hbm, ⟨36, _⟩ => ⟨S600000x128, .i1⟩
  | .hbm, ⟨37, _⟩ => ⟨S_, .f32⟩
  | .hbm, ⟨38, _⟩ => ⟨S600000x128, .f32⟩
  | .hbm, ⟨39, _⟩ => ⟨S600000x128, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S1, .i32⟩
  | .hbm, ⟨49, _⟩ => ⟨S_, .i32⟩
  | .hbm, ⟨50, _⟩ => ⟨S600000x1, .i32⟩
  | .hbm, ⟨51, _⟩ => ⟨S600000x1, .i1⟩
  | .hbm, ⟨52, _⟩ => ⟨S1x1, .i32⟩
  | .hbm, ⟨53, _⟩ => ⟨S600000x1, .i32⟩
  | .hbm, ⟨54, _⟩ => ⟨S600000x1, .i1⟩
  | .hbm, ⟨55, _⟩ => ⟨S600000x1, .i1⟩
  | .hbm, ⟨56, _⟩ => ⟨S_, .i1⟩
  | .hbm, ⟨57, _⟩ => ⟨S600000, .i1⟩
  | .hbm, ⟨58, _⟩ => ⟨S600000x128, .f32⟩
  | .hbm, ⟨59, _⟩ => ⟨S600000x128, .i1⟩
  | .hbm, ⟨60, _⟩ => ⟨S_, .f32⟩
  | .hbm, ⟨61, _⟩ => ⟨S600000x128, .f32⟩
  | .hbm, ⟨62, _⟩ => ⟨S600000x128, .f32⟩
  | .hbm, ⟨63, _⟩ => ⟨S128x128, .f32⟩
  | .hbm, ⟨64, _⟩ => ⟨S128x128, .f32⟩
  | .hbm, ⟨65, _⟩ => ⟨S128x128, .f32⟩
  | .hbm, ⟨66, _⟩ => ⟨S1x128, .f32⟩
  | .hbm, ⟨67, _⟩ => ⟨S1x128, .f32⟩
  | .hbm, ⟨68, _⟩ => ⟨S600000x128, .f32⟩
  | .hbm, ⟨69, _⟩ => ⟨S_, .f32⟩
  | .hbm, ⟨70, _⟩ => ⟨S50000x128, .f32⟩
  | .hbm, ⟨71, _⟩ => ⟨S600000x1, .i32⟩
  | .hbm, ⟨72, _⟩ => ⟨S50000x128, .f32⟩
  | .hbm, ⟨73, _⟩ => ⟨S128x128, .f32⟩
  | .hbm, ⟨74, _⟩ => ⟨S128x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S50000x128, .f32⟩
  | .local _ .vmem, ⟨0, _⟩ => ⟨S3000x128, .f32⟩
  | .local _ .vmem, ⟨1, _⟩ => ⟨S3000x128, .f32⟩
  | .local _ .vmem, ⟨2, _⟩ => ⟨S3000x128, .f32⟩
  | .local _ .vmem, ⟨3, _⟩ => ⟨S3000x128, .f32⟩
  | .local _ .vmem, ⟨4, _⟩ => ⟨S3000x128, .f32⟩
  | .local _ .vmem, ⟨5, _⟩ => ⟨S3000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S3000x128, .f32⟩
  | .local _ .vmem, ⟨13, _⟩ => ⟨S3000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_cst : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg9_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem9_1 : DmaSem sig := 26

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S3000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3000x128 : S1x128.Broadcasts S3000x128
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S50000x128_S600000x1_S600000x128_1_0_n_n_0_1_1128_wf : GatherDims.WF S50000x128 S600000x1 S600000x128 [1] [0] [] [0] [] 1 ![1, 128]
  dot_S3000x128_S128x128_S3000x128_1_0_0_1_n_n_wf : DotDims.WF S3000x128 S128x128 S3000x128 [1] [0] [0] [1] [] []
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x128.size a ≤ S600000x128.size a
  hwx0_0 : ∀ i : grid0.Coords, EltTy.bits .f32 = 32 ∨ (Rect.block (s := S600000x128) S3000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x128.size a ≤ S600000x128.size a
  hwx0_1 : ∀ i : grid0.Coords, EltTy.bits .f32 = 32 ∨ (Rect.block (s := S600000x128) S3000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x128.size a ≤ S600000x128.size a
  hwx0_2 : ∀ i : grid0.Coords, EltTy.bits .f32 = 32 ∨ (Rect.block (s := S600000x128) S3000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3000x128.size a ≤ S600000x128.size a
  hwx0_9 : ∀ i : grid0.Coords, EltTy.bits .f32 = 32 ∨ (Rect.block (s := S600000x128) S3000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v4) S3000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S3000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S3000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v20) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v21) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S2x600000 : Shape := ⟨2, ![2, 600000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x384 : Shape := ⟨2, ![600000, 384]⟩
abbrev S1x128 : Shape := ⟨2, ![1, 128]⟩
abbrev S50000x256 : Shape := ⟨2, ![50000, 256]⟩
abbrev S50000 : Shape := ⟨1, ![50000]⟩
abbrev S50000x1 : Shape := ⟨2, ![50000, 1]⟩

abbrev nBuf : Space → Nat
  | .hbm => 105
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S2x600000, .i32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .f32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .f32⟩
  | .hbm, ⟨35, _⟩ => ⟨S600000x384, .f32⟩
  | .hbm, ⟨36, _⟩ => ⟨S600000x128, .f32⟩
  | .hbm, ⟨37, _⟩ => ⟨S1x128, .f32⟩
  | .hbm, ⟨38, _⟩ => ⟨S600000x128, .f32⟩
  | .hbm, ⟨39, _⟩ => ⟨S600000x128, .f32⟩
  | .hbm, ⟨40, _⟩ => ⟨S600000x128, .f32⟩
  | .hbm, ⟨41, _⟩ => ⟨S600000x128, .f32⟩
  | .hbm, ⟨42, _⟩ => ⟨S_, .f32⟩
  | .hbm, ⟨43, _⟩ => ⟨S600000x128, .f32⟩
  | .hbm, ⟨44, _⟩ => ⟨S600000x128, .f32⟩
  | .hbm, ⟨45, _⟩ => ⟨S_, .f32⟩
  | .hbm, ⟨46, _⟩ => ⟨S600000x128, .f32⟩
  | .hbm, ⟨47, _⟩ => ⟨S600000x128, .f32⟩
  | .hbm, ⟨48, _⟩ => ⟨S600000x128, .f32⟩
  | .hbm, ⟨49, _⟩ => ⟨S600000x128, .f32⟩
  | .hbm, ⟨50, _⟩ => ⟨S1x128, .f32⟩
  | .hbm, ⟨51, _⟩ => ⟨S600000x128, .f32⟩
  | .hbm, ⟨52, _⟩ => ⟨S600000x128, .f32⟩
  | .hbm, ⟨53, _⟩ => ⟨S_, .f32⟩
  | .hbm, ⟨54, _⟩ => ⟨S50000x128, .f32⟩
  | .hbm, ⟨55, _⟩ => ⟨S600000x1, .i32⟩
  | .hbm, ⟨56, _⟩ => ⟨S50000x128, .f32⟩
  | .hbm, ⟨57, _⟩ => ⟨S50000x256, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000, .f32⟩
  | .hbm, ⟨78, _⟩ => ⟨S50000x1, .f32⟩
  | .hbm, ⟨79, _⟩ => ⟨S_, .f32⟩
  | .hbm, ⟨80, _⟩ => ⟨S50000x1, .f32⟩
  | .hbm, ⟨81, _⟩ => ⟨S50000x1, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000, .f32⟩
  | .hbm, ⟨87, _⟩ => ⟨S50000x1, .f32⟩
  | .hbm, ⟨88, _⟩ => ⟨S_, .f32⟩
  | .hbm, ⟨89, _⟩ => ⟨S50000x1, .f32⟩
  | .hbm, ⟨90, _⟩ => ⟨S50000x1, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S50000x1, .f32⟩
  | .hbm, ⟨95, _⟩ => ⟨S50000x1, .f32⟩
  | .hbm, ⟨96, _⟩ => ⟨S50000x1, .f32⟩
  | .hbm, ⟨97, _⟩ => ⟨S50000x128, .f32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S50000x128, .f32⟩
  | .hbm, ⟨102, _⟩ => ⟨S1x128, .f32⟩
  | .hbm, ⟨103, _⟩ => ⟨S50000x128, .f32⟩
  | .hbm, ⟨104, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_3 : Ref sig .tc := ⟨.hbm, 76, rfl⟩
abbrev main_v42 : Ref sig .tc := ⟨.hbm, 77, rfl⟩
abbrev main_v43 : Ref sig .tc := ⟨.hbm, 78, rfl⟩
abbrev main_cst_4 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_5 : Ref sig .tc := ⟨.hbm, 85, rfl⟩
abbrev main_v49 : Ref sig .tc := ⟨.hbm, 86, rfl⟩
abbrev main_v50 : Ref sig .tc := ⟨.hbm, 87, rfl⟩
abbrev main_cst_6 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_7 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x128_S600000x384_d1 : Shape.Concatenates [S600000x128, S600000x128, S600000x128] S600000x384 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  dot_S600000x384_S384x128_S600000x128_1_0_0_1_n_n_wf : DotDims.WF S600000x384 S384x128 S600000x128 [1] [0] [0] [1] [] []
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x384_S384x128_S600000x128_1_0_0_1_n_n : DotDims S600000x384 S384x128 S600000x128 where
  lhsContracting := [1]
  rhsContracting := [0]
  lhsNonContracting := [0]
  rhsNonContracting := [1]
  lhsBatch := []
  rhsBatch := []
  wf := dot_S600000x384_S384x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RefRun.lean ====
/-
  The reference program's run, read back in stages.  The program is a straight line of 92 host operations; every weakly fair
  execution ends with each buffer at the fold of the operations over the launch memory.  The fold is read in six stretches:
  the node numbers and the two gathers; the message network; the sum of messages onto their destinations and the update
  network's first layer; the rest of the update network and the residual; the mean and the variance of each residual row; the
  normalisation, scale and shift.  Each stretch is opened over an arbitrary entering valuation of which only the few buffers
  it reads are known, so every buffer's term is built once, from the stage before it.
-/
import proofs.«402153_j13048110646129_2_alg».proof.Proof.RefRead
import Idealize.ShloMosaic.Lib.StableHlo.Run
import Idealize.ShloMosaic.Lib.Pipeline.Frame

set_option maxRecDepth 16384

noncomputable section

namespace Cert.ReferenceIdeal.RunP

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

abbrev T1 : List (HloOp τ sig (Elt F)) := (ops (F := F)).take 22
abbrev T2 : List (HloOp τ sig (Elt F)) := ((ops (F := F)).drop 22).take 18
abbrev T3 : List (HloOp τ sig (Elt F)) := ((ops (F := F)).drop 40).take 9
abbrev T4 : List (HloOp τ sig (Elt F)) := ((ops (F := F)).drop 49).take 14
abbrev T5 : List (HloOp τ sig (Elt F)) := ((ops (F := F)).drop 63).take 15
abbrev T6 : List (HloOp τ sig (Elt F)) := (ops (F := F)).drop 78

theorem ops_split : (ops (F := F)) = T1 ++ (T2 ++ (T3 ++ (T4 ++ (T5 ++ T6)))) := by
  rfl

/-- A buffer that a stretch does not write keeps its contents over it. -/
macro "pass_stretch" : tactic => `(tactic| (
  simp only [T1, T2, T3, T4, T5, T6, ops, List.drop_succ_cons, List.drop_zero, List.take_succ_cons, List.take_zero]
  after_results_simp <;> rfl))

/-! ## Stretch 1: the node numbers and the gathered rows -/

set_option maxHeartbeats 4000000 in
theorem t1_v10 (X : Valuation τ sig (Elt F)) : after T1 X (Proc.devRef .tc main_v10)
    = val_main_v10 (F := F) (X (Proc.devRef .tc main_arg0)) (X (Proc.devRef .tc main_arg2)) := by
  unfold val_main_v10 val_main_v9 val_main_v8 val_main_v7 val_main_v6 val_main_v5 val_main_v4 val_main_c_0 val_main_c val_main_v1 val_main_v0
  simp only [T1, T2, T3, T4, T5, T6, ops, List.drop_succ_cons, List.drop_zero, List.take_succ_cons, List.take_zero]
  after_results_simp
  try simp only [TRef.ofBuf, TRef.toBuf, cast_eq]
  try rfl

set_option maxHeartbeats 4000000 in
theorem t1_v17 (X : Valuation τ sig (Elt F)) : after T1 X (Proc.devRef .tc main_v17)
    = val_main_v17 (F := F) (X (Proc.devRef .tc main_arg0)) (X (Proc.devRef .tc main_arg2)) := by
  unfold val_main_v17 val_main_v16 val_main_v15 val_main_v14 val_main_v13 val_main_v12 val_main_v11 val_main_c_2 val_main_c_1 val_main_v3 val_main_v2
  simp only [T1, T2, T3, T4, T5, T6, ops, List.drop_succ_cons, List.drop_zero, List.take_succ_cons, List.take_zero]
  after_results_simp
  try simp only [TRef.ofBuf, TRef.toBuf, cast_eq]
  try rfl

set_option maxHeartbeats 4000000 in
theorem t1_v3 (X : Valuation τ sig (Elt F)) : after T1 X (Proc.devRef .tc main_v3) = val_main_v3 (F := F) (X (Proc.devRef .tc main_arg2)) := by
  unfold val_main_v3 val_main_v2
  simp only [T1, T2, T3, T4, T5, T6, ops, List.drop_succ_cons, List.drop_zero, List.take_succ_cons, List.take_zero]
  after_results_simp
  try simp only [TRef.ofBuf, TRef.toBuf, cast_eq]
  try rfl

/-! ## Stretch 2: the message network -/

set_option maxHeartbeats 4000000 in
theorem t2_v27 (Y : Valuation τ sig (Elt F)) (x0 : (⟨S50000x128, .f32⟩ : BufTy).Contents (Elt F)) (x1 : (⟨S600000x128, .f32⟩ : BufTy).Contents (Elt F)) (x2 : (⟨S2x600000, .i32⟩ : BufTy).Contents (Elt F)) (x3 : (⟨S384x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
    (h10 : Y (Proc.devRef .tc main_v10) = val_main_v10 (F := F) x0 x2) (h17 : Y (Proc.devRef .tc main_v17) = val_main_v17 (F := F) x0 x2)
    (e1 : Y (Proc.devRef .tc main_arg1) = x1) (e3 : Y (Proc.devRef .tc main_arg3) = x3) (e4 : Y (Proc.devRef .tc main_arg4) = x4) (e5 : Y (Proc.devRef .tc main_arg5) = x5) (e6 : Y (Proc.devRef .tc main_arg6) = x6) :
    after T2 Y (Proc.devRef .tc main_v27) = val_main_v27 (F := F) x0 x1 x2 x3 x4 x5 x6 := by
  subst e1 e3 e4 e5 e6
  unfold val_main_v27 val_main_v26 val_main_v25 val_main_v24 val_main_v23 val_main_call0_v5 val_main_call0_v4 val_main_call0_cst_0 val_main_call0_v3 val_main_call0_v2 val_main_call0_cst val_main_call0_v1 val_main_call0_v0 val_main_v22 val_main_v21 val_main_v20 val_main_v19 val_main_v18
  rw [← h10, ← h17]
  simp only [T1, T2, T3, T4, T5, T6, ops, List.drop_succ_cons, List.drop_zero, List.take_succ_cons, List.take_zero]
  after_results_simp
  try simp only [TRef.ofBuf, TRef.toBuf, cast_eq]
  try rfl

/-! ## Stretch 3: the messages summed onto their destinations, and the update network's first layer -/

set_option maxHeartbeats 4000000 in
theorem t3_v35 (Y : Valuation τ sig (Elt F)) (x0 : (⟨S50000x128, .f32⟩ : BufTy).Contents (Elt F)) (x1 : (⟨S600000x128, .f32⟩ : BufTy).Contents (Elt F)) (x2 : (⟨S2x600000, .i32⟩ : BufTy).Contents (Elt F)) (x3 : (⟨S384x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S256x128, .f32⟩ : BufTy).Contents (Elt F)) (x8 : (⟨S128, .f32⟩ : BufTy).Contents (Elt F))
    (h3 : Y (Proc.devRef .tc main_v3) = val_main_v3 (F := F) x2) (h27 : Y (Proc.devRef .tc main_v27) = val_main_v27 (F := F) x0 x1 x2 x3 x4 x5 x6)
    (e0 : Y (Proc.devRef .tc main_arg0) = x0) (e7 : Y (Proc.devRef .tc main_arg7) = x7) (e8 : Y (Proc.devRef .tc main_arg8) = x8) :
    after T3 Y (Proc.devRef .tc main_v35) = val_main_v35 (F := F) x0 x1 x2 x3 x4 x5 x6 x7 x8 := by
  unfold val_main_v35 val_main_v34 val_main_v33 val_main_v32 val_main_v31 val_main_v30 val_main_v29 val_main_v28 val_main_cst
  rw [← h3, ← h27]
  subst e0 e7 e8
  simp only [T1, T2, T3, T4, T5, T6, ops, List.drop_succ_cons, List.drop_zero, List.take_succ_cons, List.take_zero]
  after_results_simp
  try simp only [TRef.ofBuf, TRef.toBuf, cast_eq]
  try rfl

/-! ## Stretch 4: the rest of the update network and the residual -/

set_option maxHeartbeats 4000000 in
theorem t4_v41 (Y : Valuation τ sig (Elt F)) (x0 : (⟨S50000x128, .f32⟩ : BufTy).Contents (Elt F)) (x1 : (⟨S600000x128, .f32⟩ : BufTy).Contents (Elt F)) (x2 : (⟨S2x600000, .i32⟩ : BufTy).Contents (Elt F)) (x3 : (⟨S384x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S256x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F))
    (h35 : Y (Proc.devRef .tc main_v35) = val_main_v35 (F := F) x0 x1 x2 x3 x4 x5 x6 x7 x8)
    (e0 : Y (Proc.devRef .tc main_arg0) = x0) (e9 : Y (Proc.devRef .tc main_arg9) = x9) (e10 : Y (Proc.devRef .tc main_arg10) = x10) :
    after T4 Y (Proc.devRef .tc main_v41) = val_main_v41 (F := F) x0 x1 x2 x3 x4 x5 x6 x7 x8 x9 x10 := by
  unfold val_main_v41 val_main_v40 val_main_v39 val_main_v38 val_main_v37 val_main_v36 val_main_call1_v5 val_main_call1_v4 val_main_call1_cst_0 val_main_call1_v3 val_main_call1_v2 val_main_call1_cst val_main_call1_v1 val_main_call1_v0
  rw [← h35]
  subst e0 e9 e10
  simp only [T1, T2, T3, T4, T5, T6, ops, List.drop_succ_cons, List.drop_zero, List.take_succ_cons, List.take_zero]
  after_results_simp
  try simp only [TRef.ofBuf, TRef.toBuf, cast_eq]
  try rfl

/-! ## Stretch 5: the mean and the variance of each residual row -/

set_option maxHeartbeats 4000000 in
theorem t5_v45 (Y : Valuation τ sig (Elt F)) (x0 : (⟨S50000x128, .f32⟩ : BufTy).Contents (Elt F)) (x1 : (⟨S600000x128, .f32⟩ : BufTy).Contents (Elt F)) (x2 : (⟨S2x600000, .i32⟩ : BufTy).Contents (Elt F)) (x3 : (⟨S384x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S256x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F))
    (h41 : Y (Proc.devRef .tc main_v41) = val_main_v41 (F := F) x0 x1 x2 x3 x4 x5 x6 x7 x8 x9 x10) :
    after T5 Y (Proc.devRef .tc main_v45) = val_main_v45 (F := F) x0 x1 x2 x3 x4 x5 x6 x7 x8 x9 x10 := by
  unfold val_main_v45 val_main_v44 val_main_cst_4 val_main_v43 val_main_v42 val_main_cst_3
  rw [← h41]
  simp only [T1, T2, T3, T4, T5, T6, ops, List.drop_succ_cons, List.drop_zero, List.take_succ_cons, List.take_zero]
  after_results_simp
  try simp only [TRef.ofBuf, TRef.toBuf, cast_eq]
  try rfl

set_option maxHeartbeats 4000000 in
theorem t5_v52 (Y : Valuation τ sig (Elt F)) (x0 : (⟨S50000x128, .f32⟩ : BufTy).Contents (Elt F)) (x1 : (⟨S600000x128, .f32⟩ : BufTy).Contents (Elt F)) (x2 : (⟨S2x600000, .i32⟩ : BufTy).Contents (Elt F)) (x3 : (⟨S384x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S256x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F))
    (h41 : Y (Proc.devRef .tc main_v41) = val_main_v41 (F := F) x0 x1 x2 x3 x4 x5 x6 x7 x8 x9 x10) :
    after T5 Y (Proc.devRef .tc main_v52) = val_main_v52 (F := F) x0 x1 x2 x3 x4 x5 x6 x7 x8 x9 x10 := by
  unfold val_main_v52 val_main_v51 val_main_cst_6 val_main_v50 val_main_v49 val_main_cst_5 val_main_v48 val_main_v47 val_main_v46 val_main_v45 val_main_v44 val_main_cst_4 val_main_v43 val_main_v42 val_main_cst_3
  rw [← h41]
  simp only [T1, T2, T3, T4, T5, T6, ops, List.drop_succ_cons, List.drop_zero, List.take_succ_cons, List.take_zero]
  after_results_simp
  try simp only [TRef.ofBuf, TRef.toBuf, cast_eq]
  try rfl

/-! ## Stretch 6: the normalisation, the scale and the shift -/

set_option maxHeartbeats 4000000 in
theorem t6_v65 (Y : Valuation τ sig (Elt F)) (x0 : (⟨S50000x128, .f32⟩ : BufTy).Contents (Elt F)) (x1 : (⟨S600000x128, .f32⟩ : BufTy).Contents (Elt F)) (x2 : (⟨S2x600000, .i32⟩ : BufTy).Contents (Elt F)) (x3 : (⟨S384x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S256x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S128, .f32⟩ : BufTy).Contents (Elt F)) (x12 : (⟨S128, .f32⟩ : BufTy).Contents (Elt F))
    (h41 : Y (Proc.devRef .tc main_v41) = val_main_v41 (F := F) x0 x1 x2 x3 x4 x5 x6 x7 x8 x9 x10)
    (h45 : Y (Proc.devRef .tc main_v45) = val_main_v45 (F := F) x0 x1 x2 x3 x4 x5 x6 x7 x8 x9 x10)
    (h52 : Y (Proc.devRef .tc main_v52) = val_main_v52 (F := F) x0 x1 x2 x3 x4 x5 x6 x7 x8 x9 x10)
    (e11 : Y (Proc.devRef .tc main_arg11) = x11) (e12 : Y (Proc.devRef .tc main_arg12) = x12) :
    after T6 Y (Proc.devRef .tc main_v65) = val_main_v65 (F := F) x0 x1 x2 x3 x4 x5 x6 x7 x8 x9 x10 x11 x12 := by
  unfold val_main_v65 val_main_v64 val_main_v63 val_main_v62 val_main_v61 val_main_v60 val_main_v59 val_main_v58 val_main_v57 val_main_v56 val_main_v55 val_main_cst_7 val_main_v54 val_main_v53
  rw [← h41, ← h45, ← h52]
  subst e11 e12
  simp only [T1, T2, T3, T4, T5, T6, ops, List.drop_succ_cons, List.drop_zero, List.take_succ_cons, List.take_zero]
  after_results_simp
  try simp only [TRef.ofBuf, TRef.toBuf, cast_eq]
  try rfl

/-! ## Buffers a stretch leaves alone -/

set_option maxHeartbeats 4000000 in
theorem p1_arg0 (Y : Valuation τ sig (Elt F)) : after T1 Y (Proc.devRef .tc main_arg0) = Y (Proc.devRef .tc main_arg0) := by pass_stretch
set_option maxHeartbeats 4000000 in
theorem p1_arg1 (Y : Valuation τ sig (Elt F)) : after T1 Y (Proc.devRef .tc main_arg1) = Y (Proc.devRef .tc main_arg1) := by pass_stretch
set_option maxHeartbeats 4000000 in
theorem p1_arg3 (Y : Valuation τ sig (Elt F)) : after T1 Y (Proc.devRef .tc main_arg3) = Y (Proc.devRef .tc main_arg3) := by pass_stretch
set_option maxHeartbeats 4000000 in
theorem p1_arg4 (Y : Valuation τ sig (Elt F)) : after T1 Y (Proc.devRef .tc main_arg4) = Y (Proc.devRef .tc main_arg4) := by pass_stretch
set_option maxHeartbeats 4000000 in
theorem p1_arg5 (Y : Valuation τ sig (Elt F)) : after T1 Y (Proc.devRef .tc main_arg5) = Y (Proc.devRef .tc main_arg5) := by pass_stretch
set_option maxHeartbeats 4000000 in
theorem p1_arg6 (Y : Valuation τ sig (Elt F)) : after T1 Y (Proc.devRef .tc main_arg6) = Y (Proc.devRef .tc main_arg6) := by pass_stretch
set_option maxHeartbeats 4000000 in
theorem p1_arg7 (Y : Valuation τ sig (Elt F)) : after T1 Y (Proc.devRef .tc main_arg7) = Y (Proc.devRef .tc main_arg7) := by pass_stretch
set_option maxHeartbeats 4000000 in
theorem p1_arg8 (Y : Valuation τ sig (Elt F)) : after T1 Y (Proc.devRef .tc main_arg8) = Y (Proc.devRef .tc main_arg8) := by pass_stretch
set_option maxHeartbeats 4000000 in
theorem p1_arg9 (Y : Valuation τ sig (Elt F)) : after T1 Y (Proc.devRef .tc main_arg9) = Y (Proc.devRef .tc main_arg9) := by pass_stretch
set_option maxHeartbeats 4000000 in
theorem p1_arg10 (Y : Valuation τ sig (Elt F)) : after T1 Y (Proc.devRef .tc main_arg10) = Y (Proc.devRef .tc main_arg10) := by pass_stretch
set_option maxHeartbeats 4000000 in
theorem p1_arg11 (Y : Valuation τ sig (Elt F)) : after T1 Y (Proc.devRef .tc main_arg11) = Y (Proc.devRef .tc main_arg11) := by pass_stretch
set_option maxHeartbeats 4000000 in
theorem p1_arg12 (Y : Valuation τ sig (Elt F)) : after T1 Y (Proc.devRef .tc main_arg12) = Y (Proc.devRef .tc main_arg12) := by pass_stretch
set_option maxHeartbeats 4000000 in
theorem p2_v3 (Y : Valuation τ sig (Elt F)) : after T2 Y (Proc.devRef .tc main_v3) = Y (Proc.devRef .tc main_v3) := by pass_stretch
set_option maxHeartbeats 4000000 in
theorem p2_arg0 (Y : Valuation τ sig (Elt F)) : after T2 Y (Proc.devRef .tc main_arg0) = Y (Proc.devRef .tc main_arg0) := by pass_stretch
set_option maxHeartbeats 4000000 in
theorem p2_arg7 (Y : Valuation τ sig (Elt F)) : after T2 Y (Proc.devRef .tc main_arg7) = Y (Proc.devRef .tc main_arg7) := by pass_stretch
set_option maxHeartbeats 4000000 in
theorem p2_arg8 (Y : Valuation τ sig (Elt F)) : after T2 Y (Proc.devRef .tc main_arg8) = Y (Proc.devRef .tc main_arg8) := by pass_stretch
set_option maxHeartbeats 4000000 in
theorem p2_arg9 (Y : Valuation τ sig (Elt F)) : after T2 Y (Proc.devRef .tc main_arg9) = Y (Proc.devRef .tc main_arg9) := by pass_stretch
set_option maxHeartbeats 4000000 in
theorem p2_arg10 (Y : Valuation τ sig (Elt F)) : after T2 Y (Proc.devRef .tc main_arg10) = Y (Proc.devRef .tc main_arg10) := by pass_stretch
set_option maxHeartbeats 4000000 in
theorem p2_arg11 (Y : Valuation τ sig (Elt F)) : after T2 Y (Proc.devRef .tc main_arg11) = Y (Proc.devRef .tc main_arg11) := by pass_stretch
set_option maxHeartbeats 4000000 in
theorem p2_arg12 (Y : Valuation τ sig (Elt F)) : after T2 Y (Proc.devRef .tc main_arg12) = Y (Proc.devRef .tc main_arg12) := by pass_stretch
set_option maxHeartbeats 4000000 in
theorem p3_arg0 (Y : Valuation τ sig (Elt F)) : after T3 Y (Proc.devRef .tc main_arg0) = Y (Proc.devRef .tc main_arg0) := by pass_stretch
set_option maxHeartbeats 4000000 in
theorem p3_arg9 (Y : Valuation τ sig (Elt F)) : after T3 Y (Proc.devRef .tc main_arg9) = Y (Proc.devRef .tc main_arg9) := by pass_stretch
set_option maxHeartbeats 4000000 in
theorem p3_arg10 (Y : Valuation τ sig (Elt F)) : after T3 Y (Proc.devRef .tc main_arg10) = Y (Proc.devRef .tc main_arg10) := by pass_stretch
set_option maxHeartbeats 4000000 in
theorem p3_arg11 (Y : Valuation τ sig (Elt F)) : after T3 Y (Proc.devRef .tc main_arg11) = Y (Proc.devRef .tc main_arg11) := by pass_stretch
set_option maxHeartbeats 4000000 in
theorem p3_arg12 (Y : Valuation τ sig (Elt F)) : after T3 Y (Proc.devRef .tc main_arg12) = Y (Proc.devRef .tc main_arg12) := by pass_stretch
set_option maxHeartbeats 4000000 in
theorem p4_arg11 (Y : Valuation τ sig (Elt F)) : after T4 Y (Proc.devRef .tc main_arg11) = Y (Proc.devRef .tc main_arg11) := by pass_stretch
set_option maxHeartbeats 4000000 in
theorem p4_arg12 (Y : Valuation τ sig (Elt F)) : after T4 Y (Proc.devRef .tc main_arg12) = Y (Proc.devRef .tc main_arg12) := by pass_stretch
set_option maxHeartbeats 4000000 in
theorem p5_v41 (Y : Valuation τ sig (Elt F)) : after T5 Y (Proc.devRef .tc main_v41) = Y (Proc.devRef .tc main_v41) := by pass_stretch
set_option maxHeartbeats 4000000 in
theorem p5_arg11 (Y : Valuation τ sig (Elt F)) : after T5 Y (Proc.devRef .tc main_arg11) = Y (Proc.devRef .tc main_arg11) := by pass_stretch
set_option maxHeartbeats 4000000 in
theorem p5_arg12 (Y : Valuation τ sig (Elt F)) : after T5 Y (Proc.devRef .tc main_arg12) = Y (Proc.devRef .tc main_arg12) := by pass_stretch

/-! ## The six stretches chained -/

/-- The result buffer after all 92 operations is the last stage of the launch contents of the thirteen arguments. -/
theorem result_eq (X : Valuation τ sig (Elt F)) :
    after (ops (F := F)) X (Proc.devRef .tc main_v65) = val_main_v65 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) (X (Proc.devRef .tc main_arg11)) (X (Proc.devRef .tc main_arg12)) := by
  rw [ops_split, StableHlo.after_append, StableHlo.after_append, StableHlo.after_append, StableHlo.after_append, StableHlo.after_append]
  have q10 := t1_v10 X
  have q17 := t1_v17 X
  have q3 := t1_v3 X
  have a1_0 : (after T1 X) (Proc.devRef .tc main_arg0) = X (Proc.devRef .tc main_arg0) := p1_arg0 X
  have a1_1 : (after T1 X) (Proc.devRef .tc main_arg1) = X (Proc.devRef .tc main_arg1) := p1_arg1 X
  have a1_3 : (after T1 X) (Proc.devRef .tc main_arg3) = X (Proc.devRef .tc main_arg3) := p1_arg3 X
  have a1_4 : (after T1 X) (Proc.devRef .tc main_arg4) = X (Proc.devRef .tc main_arg4) := p1_arg4 X
  have a1_5 : (after T1 X) (Proc.devRef .tc main_arg5) = X (Proc.devRef .tc main_arg5) := p1_arg5 X
  have a1_6 : (after T1 X) (Proc.devRef .tc main_arg6) = X (Proc.devRef .tc main_arg6) := p1_arg6 X
  have a1_7 : (after T1 X) (Proc.devRef .tc main_arg7) = X (Proc.devRef .tc main_arg7) := p1_arg7 X
  have a1_8 : (after T1 X) (Proc.devRef .tc main_arg8) = X (Proc.devRef .tc main_arg8) := p1_arg8 X
  have a1_9 : (after T1 X) (Proc.devRef .tc main_arg9) = X (Proc.devRef .tc main_arg9) := p1_arg9 X
  have a1_10 : (after T1 X) (Proc.devRef .tc main_arg10) = X (Proc.devRef .tc main_arg10) := p1_arg10 X
  have a1_11 : (after T1 X) (Proc.devRef .tc main_arg11) = X (Proc.devRef .tc main_arg11) := p1_arg11 X
  have a1_12 : (after T1 X) (Proc.devRef .tc main_arg12) = X (Proc.devRef .tc main_arg12) := p1_arg12 X
  have q27 := t2_v27 (after T1 X) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) q10 q17 a1_1 a1_3 a1_4 a1_5 a1_6
  have r3 : (after T2 (after T1 X)) (Proc.devRef .tc main_v3) = val_main_v3 (F := F) (X (Proc.devRef .tc main_arg2)) := (p2_v3 (after T1 X)).trans q3
  have a2_0 : (after T2 (after T1 X)) (Proc.devRef .tc main_arg0) = X (Proc.devRef .tc main_arg0) := (p2_arg0 (after T1 X)).trans a1_0
  have a2_7 : (after T2 (after T1 X)) (Proc.devRef .tc main_arg7) = X (Proc.devRef .tc main_arg7) := (p2_arg7 (after T1 X)).trans a1_7
  have a2_8 : (after T2 (after T1 X)) (Proc.devRef .tc main_arg8) = X (Proc.devRef .tc main_arg8) := (p2_arg8 (after T1 X)).trans a1_8
  have a2_9 : (after T2 (after T1 X)) (Proc.devRef .tc main_arg9) = X (Proc.devRef .tc main_arg9) := (p2_arg9 (after T1 X)).trans a1_9
  have a2_10 : (after T2 (after T1 X)) (Proc.devRef .tc main_arg10) = X (Proc.devRef .tc main_arg10) := (p2_arg10 (after T1 X)).trans a1_10
  have a2_11 : (after T2 (after T1 X)) (Proc.devRef .tc main_arg11) = X (Proc.devRef .tc main_arg11) := (p2_arg11 (after T1 X)).trans a1_11
  have a2_12 : (after T2 (after T1 X)) (Proc.devRef .tc main_arg12) = X (Proc.devRef .tc main_arg12) := (p2_arg12 (after T1 X)).trans a1_12
  have q35 := t3_v35 (after T2 (after T1 X)) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) r3 q27 a2_0 a2_7 a2_8
  have a3_0 : (after T3 (after T2 (after T1 X))) (Proc.devRef .tc main_arg0) = X (Proc.devRef .tc main_arg0) := (p3_arg0 (after T2 (after T1 X))).trans a2_0
  have a3_9 : (after T3 (after T2 (after T1 X))) (Proc.devRef .tc main_arg9) = X (Proc.devRef .tc main_arg9) := (p3_arg9 (after T2 (after T1 X))).trans a2_9
  have a3_10 : (after T3 (after T2 (after T1 X))) (Proc.devRef .tc main_arg10) = X (Proc.devRef .tc main_arg10) := (p3_arg10 (after T2 (after T1 X))).trans a2_10
  have a3_11 : (after T3 (after T2 (after T1 X))) (Proc.devRef .tc main_arg11) = X (Proc.devRef .tc main_arg11) := (p3_arg11 (after T2 (after T1 X))).trans a2_11
  have a3_12 : (after T3 (after T2 (after T1 X))) (Proc.devRef .tc main_arg12) = X (Proc.devRef .tc main_arg12) := (p3_arg12 (after T2 (after T1 X))).trans a2_12
  have q41 := t4_v41 (after T3 (after T2 (after T1 X))) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) q35 a3_0 a3_9 a3_10
  have a4_11 : (after T4 (after T3 (after T2 (after T1 X)))) (Proc.devRef .tc main_arg11) = X (Proc.devRef .tc main_arg11) := (p4_arg11 (after T3 (after T2 (after T1 X)))).trans a3_11
  have a4_12 : (after T4 (after T3 (after T2 (after T1 X)))) (Proc.devRef .tc main_arg12) = X (Proc.devRef .tc main_arg12) := (p4_arg12 (after T3 (after T2 (after T1 X)))).trans a3_12
  have q45 := t5_v45 (after T4 (after T3 (after T2 (after T1 X)))) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) q41
  have q52 := t5_v52 (after T4 (after T3 (after T2 (after T1 X)))) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) q41
  have r41 : (after T5 (after T4 (after T3 (after T2 (after T1 X))))) (Proc.devRef .tc main_v41) = val_main_v41 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) := (p5_v41 (after T4 (after T3 (after T2 (after T1 X))))).trans q41
  have a5_11 : (after T5 (after T4 (after T3 (after T2 (after T1 X))))) (Proc.devRef .tc main_arg11) = X (Proc.devRef .tc main_arg11) := (p5_arg11 (after T4 (after T3 (after T2 (after T1 X))))).trans a4_11
  have a5_12 : (after T5 (after T4 (after T3 (after T2 (after T1 X))))) (Proc.devRef .tc main_arg12) = X (Proc.devRef .tc main_arg12) := (p5_arg12 (after T4 (after T3 (after T2 (after T1 X))))).trans a4_12
  exact t6_v65 (after T5 (after T4 (after T3 (after T2 (after T1 X))))) (X (Proc.devRef .tc main_arg0)) (X (Proc.devRef .tc main_arg1)) (X (Proc.devRef .tc main_arg2)) (X (Proc.devRef .tc main_arg3)) (X (Proc.devRef .tc main_arg4)) (X (Proc.devRef .tc main_arg5)) (X (Proc.devRef .tc main_arg6)) (X (Proc.devRef .tc main_arg7)) (X (Proc.devRef .tc main_arg8)) (X (Proc.devRef .tc main_arg9)) (X (Proc.devRef .tc main_arg10)) (X (Proc.devRef .tc main_arg11)) (X (Proc.devRef .tc main_arg12)) r41 q45 q52 a5_11 a5_12

/-! ## No operation writes an argument -/

set_option maxRecDepth 8192 in
set_option maxHeartbeats 4000000 in
theorem arg0_eq (X : Valuation τ sig (Elt F)) : after (ops (F := F)) X (Proc.devRef .tc main_arg0) = X (Proc.devRef .tc main_arg0) := by
  after_results_simp <;> rfl
set_option maxRecDepth 8192 in
set_option maxHeartbeats 4000000 in
theorem arg1_eq (X : Valuation τ sig (Elt F)) : after (ops (F := F)) X (Proc.devRef .tc main_arg1) = X (Proc.devRef .tc main_arg1) := by
  after_results_simp <;> rfl
set_option maxRecDepth 8192 in
set_option maxHeartbeats 4000000 in
theorem arg2_eq (X : Valuation τ sig (Elt F)) : after (ops (F := F)) X (Proc.devRef .tc main_arg2) = X (Proc.devRef .tc main_arg2) := by
  after_results_simp <;> rfl
set_option maxRecDepth 8192 in
set_option maxHeartbeats 4000000 in
theorem arg3_eq (X : Valuation τ sig (Elt F)) : after (ops (F := F)) X (Proc.devRef .tc main_arg3) = X (Proc.devRef .tc main_arg3) := by
  after_results_simp <;> rfl
set_option maxRecDepth 8192 in
set_option maxHeartbeats 4000000 in
theorem arg4_eq (X : Valuation τ sig (Elt F)) : after (ops (F := F)) X (Proc.devRef .tc main_arg4) = X (Proc.devRef .tc main_arg4) := by
  after_results_simp <;> rfl
set_option maxRecDepth 8192 in
set_option maxHeartbeats 4000000 in
theorem arg5_eq (X : Valuation τ sig (Elt F)) : after (ops (F := F)) X (Proc.devRef .tc main_arg5) = X (Proc.devRef .tc main_arg5) := by
  after_results_simp <;> rfl
set_option maxRecDepth 8192 in
set_option maxHeartbeats 4000000 in
theorem arg6_eq (X : Valuation τ sig (Elt F)) : after (ops (F := F)) X (Proc.devRef .tc main_arg6) = X (Proc.devRef .tc main_arg6) := by
  after_results_simp <;> rfl
set_option maxRecDepth 8192 in
set_option maxHeartbeats 4000000 in
theorem arg7_eq (X : Valuation τ sig (Elt F)) : after (ops (F := F)) X (Proc.devRef .tc main_arg7) = X (Proc.devRef .tc main_arg7) := by
  after_results_simp <;> rfl
set_option maxRecDepth 8192 in
set_option maxHeartbeats 4000000 in
theorem arg8_eq (X : Valuation τ sig (Elt F)) : after (ops (F := F)) X (Proc.devRef .tc main_arg8) = X (Proc.devRef .tc main_arg8) := by
  after_results_simp <;> rfl
set_option maxRecDepth 8192 in
set_option maxHeartbeats 4000000 in
theorem arg9_eq (X : Valuation τ sig (Elt F)) : after (ops (F := F)) X (Proc.devRef .tc main_arg9) = X (Proc.devRef .tc main_arg9) := by
  after_results_simp <;> rfl
set_option maxRecDepth 8192 in
set_option maxHeartbeats 4000000 in
theorem arg10_eq (X : Valuation τ sig (Elt F)) : after (ops (F := F)) X (Proc.devRef .tc main_arg10) = X (Proc.devRef .tc main_arg10) := by
  after_results_simp <;> rfl
set_option maxRecDepth 8192 in
set_option maxHeartbeats 4000000 in
theorem arg11_eq (X : Valuation τ sig (Elt F)) : after (ops (F := F)) X (Proc.devRef .tc main_arg11) = X (Proc.devRef .tc main_arg11) := by
  after_results_simp <;> rfl
set_option maxRecDepth 8192 in
set_option maxHeartbeats 4000000 in
theorem arg12_eq (X : Valuation τ sig (Elt F)) : after (ops (F := F)) X (Proc.devRef .tc main_arg12) = X (Proc.devRef .tc main_arg12) := by
  after_results_simp <;> rfl

/-! ## The run -/

set_option maxRecDepth 8192 in
set_option maxHeartbeats 4000000 in
/-- On every device, from any memory with zero counters: every weakly fair execution of the reference program terminates
    with the result buffer at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v65).trans (result_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_seq scopedRefs_eq scopedSems_eq defs main (fun _ => ops) main_eq (fun _ => ops_sub) m ρ)

end Cert.ReferenceIdeal.RunP

end
-- ==== Proof.Spec.lean ====
/-
  The mathematics both programs compute, stated once, index by index, on the extended reals.

  A graph-network layer.  For every edge e the MESSAGE is a two-layer perceptron of the concatenated row
  [h_src(e), h_dst(e), h_edge(e)] (384 numbers): hidden unit k is
  (Σ_i h_src(e,i)·Wa(i,k) + Σ_i h_dst(e,i)·Wb(i,k)) + Σ_i h_edge(e,i)·Wc(i,k) + b1(k), where Wa, Wb, Wc are
  the three 128-row bands of the 384×128 weight matrix; then silu; then a second dense layer.  Messages are summed
  onto their destination nodes.  For every node n the UPDATE is a two-layer perceptron of [h_node(n), agg(n)]
  (the weight's two bands Ua, Ub), added to h_node(n) (the residual), and the row is layer-normalised:
  mean over the 128 features, variance as the mean of squared deviations, (r − μ)·rsqrt(σ² + ε)·γ + β.

  Everything is generic in the number of rows R: a row of the result depends only on the same row of the
  row-indexed operands, so the same definition describes a block of rows and the whole array.
-/
import Idealize.ShloMosaic.PureOps.Ideal
import Idealize.ShloMosaic.Lib.ValueIdx

noncomputable section

namespace Cert.Spec

open Idealize.ShloMosaic Idealize.ShloMosaic.ValueIdx

/-- A matrix of extended reals with r rows and c columns. -/
abbrev Mat (r c : Nat) : Type := (⟨2, ![r, c]⟩ : Shape).Idx → EReal
/-- A vector of c extended reals. -/
abbrev Row (c : Nat) : Type := (⟨1, ![c]⟩ : Shape).Idx → EReal

/-- x · σ(x) with σ(x) = 1 / (1 + e^(−x)). -/
def silu (x : EReal) : EReal := x * Ideal.logistic x

/-- Rows off … off + 127 of a matrix with 128 columns. -/
def band {K : Nat} (off : Nat) (h : off + 128 ≤ K) (W : Mat K 128) : Mat 128 128 :=
  fun i => W (ix2 ⟨off + (i 0).val, by have h0 : (i 0).val < 128 := (i 0).isLt; omega⟩ ⟨(i 1).val, (i 1).isLt⟩)

/-- A vector laid out as a one-row matrix. -/
def asRow (b : Row 128) : Mat 1 128 := fun i => b (ix1 ⟨(i 1).val, (i 1).isLt⟩)

/-! ## The message network -/

/-- Hidden unit k of the message network at row e, before the activation. -/
def msgHid {R : Nat} (hs hd he : Mat R 128) (wa wb wc : Mat 128 128) (b1 : Mat 1 128) (e : Fin R) (k : Fin 128) : EReal :=
  (((∑ i : Fin 128, hs (ix2 e i) * wa (ix2 i k)) + (∑ i : Fin 128, hd (ix2 e i) * wb (ix2 i k)))
    + (∑ i : Fin 128, he (ix2 e i) * wc (ix2 i k))) + b1 (ix2 (0 : Fin 1) k)

/-- Output feature j of the message at row e. -/
def msgAt {R : Nat} (hs hd he : Mat R 128) (wa wb wc : Mat 128 128) (b1 : Mat 1 128) (w2 : Mat 128 128) (b2 : Mat 1 128)
    (e : Fin R) (j : Fin 128) : EReal :=
  (∑ k : Fin 128, silu (msgHid hs hd he wa wb wc b1 e k) * w2 (ix2 k j)) + b2 (ix2 (0 : Fin 1) j)

/-- The messages as an array. -/
def msg {R : Nat} (hs hd he : Mat R 128) (wa wb wc : Mat 128 128) (b1 : Mat 1 128) (w2 : Mat 128 128) (b2 : Mat 1 128) : Mat R 128 :=
  fun i => msgAt hs hd he wa wb wc b1 w2 b2 ⟨(i 0).val, (i 0).isLt⟩ ⟨(i 1).val, (i 1).isLt⟩

theorem msg_ix2 {R : Nat} (hs hd he : Mat R 128) (wa wb wc : Mat 128 128) (b1 : Mat 1 128) (w2 : Mat 128 128) (b2 : Mat 1 128)
    (e : Fin R) (j : Fin 128) : msg hs hd he wa wb wc b1 w2 b2 (ix2 e j) = msgAt hs hd he wa wb wc b1 w2 b2 e j := rfl

/-! ## The update network, the residual and the layer norm -/

/-- The divisor of the two means: the number of features, as the 32-bit float both programs carry. -/
def c128 : EReal := Ideal.ofBits .f32 0x43000000#32
/-- The layer norm's ε, as the 32-bit float both programs carry. -/
def ceps : EReal := Ideal.ofBits .f32 0x3727C5AC#32

/-- Hidden unit k of the update network at row n, before the activation. -/
def updHid {R : Nat} (hn ag : Mat R 128) (ua ub : Mat 128 128) (c1 : Mat 1 128) (n : Fin R) (k : Fin 128) : EReal :=
  ((∑ i : Fin 128, hn (ix2 n i) * ua (ix2 i k)) + (∑ i : Fin 128, ag (ix2 n i) * ub (ix2 i k))) + c1 (ix2 (0 : Fin 1) k)

/-- The residual row: the node's features plus the update network's output. -/
def resid {R : Nat} (hn ag : Mat R 128) (ua ub : Mat 128 128) (c1 : Mat 1 128) (u2 : Mat 128 128) (c2 : Mat 1 128)
    (n : Fin R) (j : Fin 128) : EReal :=
  hn (ix2 n j) + ((∑ k : Fin 128, silu (updHid hn ag ua ub c1 n k) * u2 (ix2 k j)) + c2 (ix2 (0 : Fin 1) j))

/-- The mean of a residual row. -/
def mean {R : Nat} (hn ag : Mat R 128) (ua ub : Mat 128 128) (c1 : Mat 1 128) (u2 : Mat 128 128) (c2 : Mat 1 128) (n : Fin R) : EReal :=
  Ideal.div (∑ j : Fin 128, resid hn ag ua ub c1 u2 c2 n j) c128

/-- The variance of a residual row: the mean of the squared deviations from its mean. -/
def var {R : Nat} (hn ag : Mat R 128) (ua ub : Mat 128 128) (c1 : Mat 1 128) (u2 : Mat 128 128) (c2 : Mat 1 128) (n : Fin R) : EReal :=
  Ideal.div (∑ j : Fin 128, (resid hn ag ua ub c1 u2 c2 n j - mean hn ag ua ub c1 u2 c2 n)
      * (resid hn ag ua ub c1 u2 c2 n j - mean hn ag ua ub c1 u2 c2 n)) c128

/-- Feature j of the normalised row n. -/
def updAt {R : Nat} (hn ag : Mat R 128) (ua ub : Mat 128 128) (c1 : Mat 1 128) (u2 : Mat 128 128) (c2 g bt : Mat 1 128)
    (n : Fin R) (j : Fin 128) : EReal :=
  ((resid hn ag ua ub c1 u2 c2 n j - mean hn ag ua ub c1 u2 c2 n)
      * Ideal.rsqrt (var hn ag ua ub c1 u2 c2 n + ceps)) * g (ix2 (0 : Fin 1) j) + bt (ix2 (0 : Fin 1) j)

/-- The new node features as an array. -/
def upd {R : Nat} (hn ag : Mat R 128) (ua ub : Mat 128 128) (c1 : Mat 1 128) (u2 : Mat 128 128) (c2 g bt : Mat 1 128) : Mat R 128 :=
  fun i => updAt hn ag ua ub c1 u2 c2 g bt ⟨(i 0).val, (i 0).isLt⟩ ⟨(i 1).val, (i 1).isLt⟩

theorem upd_ix2 {R : Nat} (hn ag : Mat R 128) (ua ub : Mat 128 128) (c1 : Mat 1 128) (u2 : Mat 128 128) (c2 g bt : Mat 1 128)
    (n : Fin R) (j : Fin 128) : upd hn ag ua ub c1 u2 c2 g bt (ix2 n j) = updAt hn ag ua ub c1 u2 c2 g bt n j := rfl

end Cert.Spec

end
-- ==== Proof.Take.lean ====
/-
  Reading rows of the node features at a list of node numbers, the way the program's host code does it: a negative number
  is first moved up by the number of nodes, the rows are gathered (the gather itself keeps every start inside the array),
  and every row whose moved number is not between 0 and 49999 is replaced by a fill pattern.  When every number is
  already between 0 and 49999 nothing is moved and nothing is filled: the result is the plain gather.
-/
import proofs.«402153_j13048110646129_2_alg».proof.Proof.Gen.KernelIdeal
import Idealize.ShloMosaic.Lib.ValueIdx
import Idealize.ShloMosaic.Lib.ReduceAll
import Idealize.ShloMosaic.Lib.StableHlo.Predicate

noncomputable section

namespace Cert.KernelIdeal.Take

open Cert.KernelIdeal Cert.KernelIdeal.Gen
open Idealize.ShloMosaic Idealize.ShloMosaic.ValueIdx

variable {F : FTy → Type} [FloatOps F]

/-- Node numbers with the negative ones moved up by 50000, as a column. -/
def wrapIdx (idx : IVec S600000 32) : IVec S600000x1 32 :=
  broadcastInDim S600000x1 ![0] bcast_S600000_S600000x1_0
    (select (cmpi .slt idx (broadcastInDim S600000 ![] bcast_S_S600000 (constantI S_ 32 0#32)))
      (addi idx (broadcastInDim S600000 ![] bcast_S_S600000 (constantI S_ 32 50000#32))) idx)

/-- Row by row: is the (moved) node number between 0 and 49999? -/
def inRange (i5 : IVec S600000x1 32) : IVec S600000 1 :=
  Host.reduce IntOp.andi
    (andi (cmpi .sge i5 (broadcastInDim S600000x1 ![] bcast_S_S600000x1 (constantI S_ 32 0#32)))
      (cmpi .sle i5 (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

/-- The rows of x0 at the node numbers idx, out-of-range rows filled. -/
def takeK (x0 : FVec F S50000x128 .f32) (idx : IVec S600000 32) : FVec F S600000x128 .f32 :=
  select (broadcastInDim S600000x128 ![0] bcast_S600000_S600000x128_0 (inRange (wrapIdx idx)))
    (Host.gather gather_S50000x128_S600000x1_S600000x128_1_0_n_n_0_1_1128 x0 (wrapIdx idx))
    (broadcastInDim S600000x128 ![] bcast_S_S600000x128 (constant S_ .f32 0x7FC00000#32))

/-- A left fold by "and" over one-bit words that starts at 1 and meets only 1s ends at 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- An and-reduction from 1 of an array of one-bit words that are all 1 is 1 at every result index. -/
theorem reduce_andi_one {s t u : Shape} {axes : List (Fin s.rank)} (x : s.Idx → BitVec 1) (init : u.Idx → BitVec 1)
    (hr : s.ReducesTo axes t) (hu : 0 < u.numel) (hx : ∀ i, x i = 1#1) (hinit : init (Shape.Idx.first hu) = 1#1)
    (j : t.Idx) : Host.reduce IntOp.andi x init hr hu j = 1#1 := by
  rw [Host.reduce_eq_foldl, hinit]
  exact foldl_andi_one x hx _

/-- Every entry of the column of moved node numbers is the select, at some row, between the number moved up by 50000
    (taken when the number compares signed-below zero) and the number itself. -/
theorem wrapIdx_apply (idx : IVec S600000 32) (i : S600000x1.Idx) :
    ∃ r : S600000.Idx, wrapIdx idx i
      = Scalar.select (IntOp.cmpi .slt (idx r) 0#32) (IntOp.addi (idx r) 50000#32) (idx r) :=
  ⟨_, rfl⟩

/-- A node number that is nonnegative as a signed number is not moved. -/
theorem select_nonneg {v : BitVec 32} (hv : 0 ≤ v.toInt) :
    Scalar.select (IntOp.cmpi .slt v 0#32) (IntOp.addi v 50000#32) v = v := by
  have hc : ¬ IntOp.cmpi .slt v 0#32 = 1#1 := by
    rw [IntOp.cmpi_slt, show (0#32 : BitVec 32).toInt = 0 from by decide]
    omega
  rw [eq_zero_of_ne_one hc, select_zero]

/-- With every node number between 0 and 49999, every entry of the column of moved numbers is one of the numbers, so it
    is between 0 and 49999 too. -/
theorem wrapIdx_range (idx : IVec S600000 32) (h : ∀ i : S600000.Idx, 0 ≤ (idx i).toInt ∧ (idx i).toInt < 50000)
    (i : S600000x1.Idx) : 0 ≤ (wrapIdx idx i).toInt ∧ (wrapIdx idx i).toInt < 50000 := by
  obtain ⟨r, e⟩ := wrapIdx_apply idx i
  rw [e, select_nonneg (h r).1]
  exact h r

/-- With every moved number between 0 and 49999 the range test is 1 at every row. -/
theorem inRange_one (i5 : IVec S600000x1 32) (h5 : ∀ i : S600000x1.Idx, 0 ≤ (i5 i).toInt ∧ (i5 i).toInt < 50000)
    (r : S600000.Idx) : inRange i5 r = 1#1 := by
  unfold inRange
  refine reduce_andi_one _ _ _ _ (fun i => ?_) rfl r
  -- at entry i both compared arrays are constant words
  show IntOp.andi (IntOp.cmpi .sge (i5 i) 0#32) (IntOp.cmpi .sle (i5 i) 49999#32) = 1#1
  rw [IntOp.andi_eq_one, IntOp.cmpi_sge, IntOp.cmpi_sle, show (0#32 : BitVec 32).toInt = 0 from by decide,
    show (49999#32 : BitVec 32).toInt = 49999 from by decide]
  have := h5 i
  omega

/-- With every node number between 0 and 49999, row p of the column of moved numbers is the p-th number itself. -/
theorem wrapIdx_ix2 (idx : IVec S600000 32) (h : ∀ i : S600000.Idx, 0 ≤ (idx i).toInt ∧ (idx i).toInt < 50000)
    (p : Fin 600000) (q : Fin 1) : wrapIdx idx (ix2 p q) = idx (ix1 p) := by
  -- the column's entry (p, q) reads the selected vector at p
  have e : wrapIdx idx (ix2 p q)
      = Scalar.select (IntOp.cmpi .slt (idx (ix1 p)) 0#32) (IntOp.addi (idx (ix1 p)) 50000#32) (idx (ix1 p)) := by
    unfold wrapIdx broadcastInDim
    rw [select_apply]
    -- the vector's one axis has extent 600000, not 1, so its coordinate is the column's row coordinate
    have hk : (fun a : Fin S600000.rank => (if h1 : S600000.size a = 1 then (⟨0, by omega⟩ : Fin (S600000.size a))
          else ⟨(ix2 p q (![0] a)).val, by
            rcases bcast_S600000_S600000x1_0.2 a with h2 | h2
            · exact absurd h2 h1
            · rw [h2]; exact (ix2 p q (![0] a)).isLt⟩)) = ix1 p := by
      funext a
      match a with
      | ⟨0, _⟩ => rfl
    rw [hk]
    rfl
  rw [e]
  exact select_nonneg (h (ix1 p)).1

/-- With every node number between 0 and 49999 no row is filled. -/
theorem takeK_eq_gather (x0 : FVec F S50000x128 .f32) (idx : IVec S600000 32)
    (h : ∀ i : S600000.Idx, 0 ≤ (idx i).toInt ∧ (idx i).toInt < 50000) :
    takeK x0 idx = Host.gather gather_S50000x128_S600000x1_S600000x128_1_0_n_n_0_1_1128 x0 (wrapIdx idx) := by
  funext j
  -- the mask at j is the range test at j's row, which is 1
  have hm : broadcastInDim S600000x128 ![0] bcast_S600000_S600000x128_0 (inRange (wrapIdx idx)) j = 1#1 :=
    inRange_one (wrapIdx idx) (wrapIdx_range idx h) _
  unfold takeK
  rw [select_apply, hm, select_one]

end Cert.KernelIdeal.Take

end
-- ==== Proof.PreIdx.lean ====
/-
  What the precondition says about the edge list: every entry of it, source or destination, is a node number between 0
  and 49999.  The precondition is a conjunction whose last two conjuncts are "all entries are at least 0" and "all
  entries are below 50000"; each is an all-reduction of a signed comparison of words.
-/
import proofs.«402153_j13048110646129_2_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreIdx

open Cert.Pre_finite_inputs Cert.Pre_finite_inputs.Gen
open Idealize.ShloMosaic Idealize.ShloMosaic.ValueIdx

/-- The scalar shape has one index only. -/
instance subsingleton_scalar_idx : Subsingleton S_.Idx := ⟨fun a b => funext fun d => d.elim0⟩

/-- A word that compares signed-at-least with the zero word is nonnegative as a signed number. -/
theorem nonneg_of_sge {v : BitVec 32} (e : IntOp.cmpi .sge v 0#32 = 1#1) : 0 ≤ v.toInt := by
  have := IntOp.cmpi_sge.1 e
  rwa [show (0#32 : BitVec 32).toInt = 0 from by decide] at this

/-- A word that compares signed-below with the word 50000 is below 50000 as a signed number. -/
theorem lt_of_slt {v : BitVec 32} (e : IntOp.cmpi .slt v 50000#32 = 1#1) : v.toInt < 50000 := by
  have := IntOp.cmpi_slt.1 e
  rwa [show (50000#32 : BitVec 32).toInt = 50000 from by decide] at this

/-- Under the precondition every entry of the edge list is a node number between 0 and 49999. -/
theorem edge_range (x0 : FVec Ideal S50000x128 .f32) (x1 : FVec Ideal S600000x128 .f32) (x2 : IVec S2x600000 32)
    (x3 : FVec Ideal S384x128 .f32) (x4 : FVec Ideal S128 .f32) (x5 : FVec Ideal S128x128 .f32) (x6 : FVec Ideal S128 .f32)
    (x7 : FVec Ideal S256x128 .f32) (x8 : FVec Ideal S128 .f32) (x9 : FVec Ideal S128x128 .f32) (x10 x11 x12 : FVec Ideal S128 .f32)
    (h : Cert.Pre_finite_inputs.fn (F := Ideal) x0 x1 x2 x3 x4 x5 x6 x7 x8 x9 x10 x11 x12 = fun _ => 1#1) :
    ∀ i : S2x600000.Idx, 0 ≤ (x2 i).toInt ∧ (x2 i).toInt < 50000 := by
  -- the precondition at the one scalar index, its conjunction spelt out
  have h0 := congrFun h ix0
  dsimp only [fn, fn_part1, fn_part2, fn_part3] at h0
  -- the conjunction nests to the left: the last conjunct is "below 50000", the one before it "at least 0"
  obtain ⟨h1, hlt⟩ := IntOp.andi_eq_one.1 h0
  obtain ⟨-, hge⟩ := IntOp.andi_eq_one.1 h1
  intro i
  -- an all-reduction that is 1 had a 1 at every entry
  have ege := Host.reduce_andi_all _ _ _ _ _ hge i
  have elt := Host.reduce_andi_all _ _ _ _ _ hlt i
  -- at entry i the compared array is the constant word
  exact ⟨nonneg_of_sge ege, lt_of_slt elt⟩

end Cert.PreIdx

end
-- ==== Proof.Glue.lean ====
/-
  Small identities between the host code's layout operations and the specification's vocabulary: a 128-row slice of a
  weight matrix is one of its bands; a vector reshaped to one row is the specification's one-row matrix; the two rows of
  the edge list, taken as lists of node numbers, inherit the bound every entry of the edge list has.
-/
import proofs.«402153_j13048110646129_2_alg».proof.Proof.Gen.KernelIdeal
import proofs.«402153_j13048110646129_2_alg».proof.Proof.Spec
import Idealize.ShloMosaic.Lib.Pipeline.Value
import Idealize.ShloMosaic.Lib.ValueIdx
import Idealize.ShloMosaic.Lib.ValueLayout

noncomputable section

namespace Cert.KernelIdeal.Glue

open Cert.KernelIdeal Cert.KernelIdeal.Gen
open Idealize.ShloMosaic Idealize.ShloMosaic.ValueIdx

/-- Row 0 of the edge list: the source node of every edge. -/
def srcIdx (x2 : IVec S2x600000 32) : IVec S600000 32 :=
  shapeCast S600000 (extractStridedSlice S1x600000 ![0, 0] x2 slices_S2x600000_S1x600000_0_0) shapeCasts_S1x600000_S600000

/-- Row 1 of the edge list: the destination node of every edge. -/
def dstIdx (x2 : IVec S2x600000 32) : IVec S600000 32 :=
  shapeCast S600000 (extractStridedSlice S1x600000 ![1, 0] x2 slices_S2x600000_S1x600000_1_0) shapeCasts_S1x600000_S600000

/-- Every entry of row 0 of the edge list is an entry of the edge list. -/
theorem srcIdx_mem (x2 : IVec S2x600000 32) (i : S600000.Idx) : ∃ k : S2x600000.Idx, srcIdx x2 i = x2 k := ⟨_, rfl⟩

/-- Every entry of row 1 of the edge list is an entry of the edge list. -/
theorem dstIdx_mem (x2 : IVec S2x600000 32) (i : S600000.Idx) : ∃ k : S2x600000.Idx, dstIdx x2 i = x2 k := ⟨_, rfl⟩

/-- Entry p of row 0 of the edge list is the edge list at (0, p). -/
theorem srcIdx_ix1 (x2 : IVec S2x600000 32) (p : Fin 600000) : srcIdx x2 (ix1 p) = x2 (ix2 (0 : Fin 2) p) := by
  unfold srcIdx
  refine (shapeCast_apply _ _ (ix1 p) (ix2 (0 : Fin 1) p) ?_).trans ?_
  · rw [Shape.rowMajor_val_one, Shape.rowMajor_val_two]
    show 0 * 600000 + p.val = p.val
    omega
  · refine extractStridedSlice_apply _ _ _ _ _ fun a => ?_
    match a with
    | ⟨0, _⟩ => rfl
    | ⟨1, _⟩ =>
      show p.val = 0 + p.val
      omega

/-- Entry p of row 1 of the edge list is the edge list at (1, p). -/
theorem dstIdx_ix1 (x2 : IVec S2x600000 32) (p : Fin 600000) : dstIdx x2 (ix1 p) = x2 (ix2 (1 : Fin 2) p) := by
  unfold dstIdx
  refine (shapeCast_apply _ _ (ix1 p) (ix2 (0 : Fin 1) p) ?_).trans ?_
  · rw [Shape.rowMajor_val_one, Shape.rowMajor_val_two]
    show 0 * 600000 + p.val = p.val
    omega
  · refine extractStridedSlice_apply _ _ _ _ _ fun a => ?_
    match a with
    | ⟨0, _⟩ => rfl
    | ⟨1, _⟩ =>
      show p.val = 0 + p.val
      omega

/-- The 128 rows of a matrix with 128 columns that start at row off, taken as a slice, are its band at off. -/
theorem slice_band {K : Nat} (off : Nat) (hK : off + 128 ≤ K) (W : Cert.Spec.Mat K 128)
    (hs : (⟨2, ![K, 128]⟩ : Shape).Slices ![off, 0] ⟨2, ![128, 128]⟩) :
    extractStridedSlice ⟨2, ![128, 128]⟩ ![off, 0] W hs = Cert.Spec.band off hK W := by
  funext j
  obtain ⟨p, q, rfl⟩ : ∃ (p : Fin 128) (q : Fin 128), j = ix2 p q := ⟨j 0, j 1, eq_ix2 j⟩
  unfold Cert.Spec.band
  refine extractStridedSlice_apply _ _ _ _ _ fun a => ?_
  match a with
  | ⟨0, _⟩ => rfl
  | ⟨1, _⟩ =>
    show q.val = 0 + q.val
    omega

theorem srcIdx_range (x2 : IVec S2x600000 32) (h : ∀ i : S2x600000.Idx, 0 ≤ (x2 i).toInt ∧ (x2 i).toInt < 50000) :
    ∀ i : S600000.Idx, 0 ≤ (srcIdx x2 i).toInt ∧ (srcIdx x2 i).toInt < 50000 := by
  intro i
  obtain ⟨k, e⟩ := srcIdx_mem x2 i
  rw [e]
  exact h k

theorem dstIdx_range (x2 : IVec S2x600000 32) (h : ∀ i : S2x600000.Idx, 0 ≤ (x2 i).toInt ∧ (x2 i).toInt < 50000) :
    ∀ i : S600000.Idx, 0 ≤ (dstIdx x2 i).toInt ∧ (dstIdx x2 i).toInt < 50000 := by
  intro i
  obtain ⟨k, e⟩ := dstIdx_mem x2 i
  rw [e]
  exact h k

/-- The three 128-row slices of the first message weight matrix are its bands. -/
theorem slice3_0 (x3 : FVec Ideal S384x128 .f32) :
    extractStridedSlice S128x128 ![0, 0] x3 slices_S384x128_S128x128_0_0 = Cert.Spec.band 0 (by decide) x3 := by
  exact slice_band 0 _ x3 _
theorem slice3_128 (x3 : FVec Ideal S384x128 .f32) :
    extractStridedSlice S128x128 ![128, 0] x3 slices_S384x128_S128x128_128_0 = Cert.Spec.band 128 (by decide) x3 := by
  exact slice_band 128 _ x3 _
theorem slice3_256 (x3 : FVec Ideal S384x128 .f32) :
    extractStridedSlice S128x128 ![256, 0] x3 slices_S384x128_S128x128_256_0 = Cert.Spec.band 256 (by decide) x3 := by
  exact slice_band 256 _ x3 _

/-- The two 128-row slices of the first update weight matrix are its bands. -/
theorem slice7_0 (x7 : FVec Ideal S256x128 .f32) :
    extractStridedSlice S128x128 ![0, 0] x7 slices_S256x128_S128x128_0_0 = Cert.Spec.band 0 (by decide) x7 := by
  exact slice_band 0 _ x7 _
theorem slice7_128 (x7 : FVec Ideal S256x128 .f32) :
    extractStridedSlice S128x128 ![128, 0] x7 slices_S256x128_S128x128_128_0 = Cert.Spec.band 128 (by decide) x7 := by
  exact slice_band 128 _ x7 _

/-- A vector of 128 numbers reshaped to one row is the one-row matrix of the specification. -/
theorem reshape_row (b : FVec Ideal S128 .f32) :
    shapeCast S1x128 b shapeCasts_S128_S1x128 = Cert.Spec.asRow b := by
  funext j
  unfold Cert.Spec.asRow
  refine shapeCast_apply b _ j _ ?_
  rw [Shape.rowMajor_val_one, Shape.rowMajor_val_two]
  have h0 : (j 0).val < 1 := (j 0).isLt
  show (j 1).val = (j 0).val * 128 + (j 1).val
  omega

end Cert.KernelIdeal.Glue

end
-- ==== Proof.HostK.lean ====
/-
  What the two regions find in their operand arrays, as terms of the launch memory.  The program's host code runs in five
  stretches: the two rows of the edge list are cut out; the source rows and then the destination rows of the node features
  are taken; the first message weight matrix is cut into its three bands and two bias vectors are laid out as rows; after the
  message region the messages are summed onto their destination nodes and the update network's parameters are cut and laid
  out the same way.  A buffer that a stretch does not write keeps its contents over it, so every argument array is read
  back to the launch memory, and each computed operand is its stretch's operations applied to what was there before.
-/
import proofs.«402153_j13048110646129_2_alg».proof.Proof.Gen.KernelIdeal.Frame
import proofs.«402153_j13048110646129_2_alg».proof.Proof.Take
import proofs.«402153_j13048110646129_2_alg».proof.Proof.Glue
import Idealize.ShloMosaic.Lib.StableHlo.Run

set_option maxRecDepth 16384

noncomputable section

namespace Cert.KernelIdeal.HostK

open Cert.KernelIdeal Cert.KernelIdeal.Gen Cert.KernelIdeal.Glue
open Idealize.ShloMosaic Idealize.ShloMosaic.TcCoe Idealize.ShloMosaic.Tactic Idealize.SL.Sem Idealize.ShloMosaic.StableHlo

variable {F : FTy → Type} [FloatOps F]
variable (m : (ℓ : Loc nD τ sig) → Buf (Elt F) ℓ) (ρ : Dev nD → PrngReg)

/-- A buffer that no operation of a stretch writes keeps its contents over the stretch. -/
macro "skip_stretch" : tactic => `(tactic| (
  refine StableHlo.after_of_forall_not_mem _ _ (List.forall_iff_forall_mem.mp ?_)
  simp only [hostOps0, hostOps0_1, hostOps0_2, hostOps0_3, hostOps1, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- Walk a buffer written by none of the stretches before the message region back to the launch memory. -/
macro "unwritten" : tactic => `(tactic| (repeat (first | (refine Eq.trans (by skip_stretch) ?_) | rfl)))

/-! ## The stretches before the message region -/

theorem W1_v1 (c : Dev nD) : W1 m ρ c (Proc.devRef .tc main_v1) = srcIdx (m ((c : Thread nD τ).loc main_arg2)) := by
  show StableHlo.after hostOps0 (W0 m ρ c) (Proc.devRef .tc main_v1) = srcIdx (W0 m ρ c (Proc.devRef .tc main_arg2))
  generalize W0 m ρ c = X
  unfold srcIdx
  after_results
  rfl

theorem W1_v3 (c : Dev nD) : W1 m ρ c (Proc.devRef .tc main_v3) = dstIdx (m ((c : Thread nD τ).loc main_arg2)) := by
  show StableHlo.after hostOps0 (W0 m ρ c) (Proc.devRef .tc main_v3) = dstIdx (W0 m ρ c (Proc.devRef .tc main_arg2))
  generalize W0 m ρ c = X
  unfold dstIdx
  after_results
  rfl

theorem W1_arg0 (c : Dev nD) : W1 m ρ c (Proc.devRef .tc main_arg0) = (m ((c : Thread nD τ).loc main_arg0)) := by unwritten

set_option maxHeartbeats 4000000 in
theorem W2_v4 (c : Dev nD) : W2 m ρ c (Proc.devRef .tc main_v4)
    = Take.takeK (W1 m ρ c (Proc.devRef .tc main_arg0)) (W1 m ρ c (Proc.devRef .tc main_v1)) := by
  show StableHlo.after hostOps0_1 (W1 m ρ c) (Proc.devRef .tc main_v4) = _
  generalize W1 m ρ c = X
  unfold Take.takeK Take.wrapIdx Take.inRange
  after_results_simp
  try simp only [TRef.ofBuf, TRef.toBuf, cast_eq]
  try rfl

theorem W2_v3 (c : Dev nD) : W2 m ρ c (Proc.devRef .tc main_v3) = W1 m ρ c (Proc.devRef .tc main_v3) := by
  show StableHlo.after hostOps0_1 (W1 m ρ c) (Proc.devRef .tc main_v3) = _
  skip_stretch

theorem W2_arg0 (c : Dev nD) : W2 m ρ c (Proc.devRef .tc main_arg0) = (m ((c : Thread nD τ).loc main_arg0)) := by unwritten

set_option maxHeartbeats 4000000 in
theorem W3_v5 (c : Dev nD) : W3 m ρ c (Proc.devRef .tc main_v5)
    = Take.takeK (W2 m ρ c (Proc.devRef .tc main_arg0)) (W2 m ρ c (Proc.devRef .tc main_v3)) := by
  show StableHlo.after hostOps0_2 (W2 m ρ c) (Proc.devRef .tc main_v5) = _
  generalize W2 m ρ c = X
  unfold Take.takeK Take.wrapIdx Take.inRange
  after_results_simp
  try simp only [TRef.ofBuf, TRef.toBuf, cast_eq]
  try rfl

theorem W3_v4 (c : Dev nD) : W3 m ρ c (Proc.devRef .tc main_v4) = W2 m ρ c (Proc.devRef .tc main_v4) := by
  show StableHlo.after hostOps0_2 (W2 m ρ c) (Proc.devRef .tc main_v4) = _
  skip_stretch

theorem W3_v3 (c : Dev nD) : W3 m ρ c (Proc.devRef .tc main_v3) = W2 m ρ c (Proc.devRef .tc main_v3) := by
  show StableHlo.after hostOps0_2 (W2 m ρ c) (Proc.devRef .tc main_v3) = _
  skip_stretch

theorem W3_arg3 (c : Dev nD) : W3 m ρ c (Proc.devRef .tc main_arg3) = (m ((c : Thread nD τ).loc main_arg3)) := by unwritten
theorem W3_arg4 (c : Dev nD) : W3 m ρ c (Proc.devRef .tc main_arg4) = (m ((c : Thread nD τ).loc main_arg4)) := by unwritten
theorem W3_arg6 (c : Dev nD) : W3 m ρ c (Proc.devRef .tc main_arg6) = (m ((c : Thread nD τ).loc main_arg6)) := by unwritten

/-! ## What the message region finds -/

theorem V4_v4 (c : Dev nD) : V4 m ρ c main_v4 = Take.takeK (m ((c : Thread nD τ).loc main_arg0)) (srcIdx (m ((c : Thread nD τ).loc main_arg2))) := by
  show StableHlo.after hostOps0_3 (W3 m ρ c) (Proc.devRef .tc main_v4) = _
  refine Eq.trans (by skip_stretch) ?_
  rw [W3_v4, W2_v4, W1_arg0, W1_v1]

theorem V4_v5 (c : Dev nD) : V4 m ρ c main_v5 = Take.takeK (m ((c : Thread nD τ).loc main_arg0)) (dstIdx (m ((c : Thread nD τ).loc main_arg2))) := by
  show StableHlo.after hostOps0_3 (W3 m ρ c) (Proc.devRef .tc main_v5) = _
  refine Eq.trans (by skip_stretch) ?_
  rw [W3_v5, W2_arg0, W2_v3, W1_v3]

theorem V4_v3 (c : Dev nD) : W4 m ρ c (Proc.devRef .tc main_v3) = dstIdx (m ((c : Thread nD τ).loc main_arg2)) := by
  show StableHlo.after hostOps0_3 (W3 m ρ c) (Proc.devRef .tc main_v3) = _
  refine Eq.trans (by skip_stretch) ?_
  rw [W3_v3, W2_v3, W1_v3]

theorem V4_arg1 (c : Dev nD) : V4 m ρ c main_arg1 = (m ((c : Thread nD τ).loc main_arg1)) := by
  show W4 m ρ c (Proc.devRef .tc main_arg1) = _
  unwritten

theorem V4_arg5 (c : Dev nD) : V4 m ρ c main_arg5 = (m ((c : Thread nD τ).loc main_arg5)) := by
  show W4 m ρ c (Proc.devRef .tc main_arg5) = _
  unwritten

theorem V4_v6 (c : Dev nD) : V4 m ρ c main_v6 = extractStridedSlice S128x128 ![0, 0] (m ((c : Thread nD τ).loc main_arg3)) slices_S384x128_S128x128_0_0 := by
  rw [← W3_arg3 m ρ c]
  show StableHlo.after hostOps0_3 (W3 m ρ c) (Proc.devRef .tc main_v6) = _
  generalize W3 m ρ c = X
  after_results
  try rfl

theorem V4_v7 (c : Dev nD) : V4 m ρ c main_v7 = extractStridedSlice S128x128 ![128, 0] (m ((c : Thread nD τ).loc main_arg3)) slices_S384x128_S128x128_128_0 := by
  rw [← W3_arg3 m ρ c]
  show StableHlo.after hostOps0_3 (W3 m ρ c) (Proc.devRef .tc main_v7) = _
  generalize W3 m ρ c = X
  after_results
  try rfl

theorem V4_v8 (c : Dev nD) : V4 m ρ c main_v8 = extractStridedSlice S128x128 ![256, 0] (m ((c : Thread nD τ).loc main_arg3)) slices_S384x128_S128x128_256_0 := by
  rw [← W3_arg3 m ρ c]
  show StableHlo.after hostOps0_3 (W3 m ρ c) (Proc.devRef .tc main_v8) = _
  generalize W3 m ρ c = X
  after_results
  try rfl

theorem V4_v9 (c : Dev nD) : V4 m ρ c main_v9 = shapeCast S1x128 (m ((c : Thread nD τ).loc main_arg4)) shapeCasts_S128_S1x128 := by
  rw [← W3_arg4 m ρ c]
  show StableHlo.after hostOps0_3 (W3 m ρ c) (Proc.devRef .tc main_v9) = _
  generalize W3 m ρ c = X
  after_results
  try rfl

theorem V4_v10 (c : Dev nD) : V4 m ρ c main_v10 = shapeCast S1x128 (m ((c : Thread nD τ).loc main_arg6)) shapeCasts_S128_S1x128 := by
  rw [← W3_arg6 m ρ c]
  show StableHlo.after hostOps0_3 (W3 m ρ c) (Proc.devRef .tc main_v10) = _
  generalize W3 m ρ c = X
  after_results
  try rfl

/-! ## After the message region: the aggregation and the update network's parameters -/

/-- An argument array is no array of the message region's result window and no stretch before it writes it. -/
theorem W5_arg0 (c : Dev nD) : W5 m ρ c (Proc.devRef .tc main_arg0) = (m ((c : Thread nD τ).loc main_arg0)) :=
  (W5_of_ne m ρ c main_arg0 (by decide)).trans (by unwritten)
theorem W5_arg7 (c : Dev nD) : W5 m ρ c (Proc.devRef .tc main_arg7) = (m ((c : Thread nD τ).loc main_arg7)) :=
  (W5_of_ne m ρ c main_arg7 (by decide)).trans (by unwritten)
theorem W5_arg8 (c : Dev nD) : W5 m ρ c (Proc.devRef .tc main_arg8) = (m ((c : Thread nD τ).loc main_arg8)) :=
  (W5_of_ne m ρ c main_arg8 (by decide)).trans (by unwritten)
theorem W5_arg9 (c : Dev nD) : W5 m ρ c (Proc.devRef .tc main_arg9) = (m ((c : Thread nD τ).loc main_arg9)) :=
  (W5_of_ne m ρ c main_arg9 (by decide)).trans (by unwritten)
theorem W5_arg10 (c : Dev nD) : W5 m ρ c (Proc.devRef .tc main_arg10) = (m ((c : Thread nD τ).loc main_arg10)) :=
  (W5_of_ne m ρ c main_arg10 (by decide)).trans (by unwritten)
theorem W5_arg11 (c : Dev nD) : W5 m ρ c (Proc.devRef .tc main_arg11) = (m ((c : Thread nD τ).loc main_arg11)) :=
  (W5_of_ne m ρ c main_arg11 (by decide)).trans (by unwritten)
theorem W5_arg12 (c : Dev nD) : W5 m ρ c (Proc.devRef .tc main_arg12) = (m ((c : Thread nD τ).loc main_arg12)) :=
  (W5_of_ne m ρ c main_arg12 (by decide)).trans (by unwritten)
theorem W5_v3 (c : Dev nD) : W5 m ρ c (Proc.devRef .tc main_v3) = dstIdx (m ((c : Thread nD τ).loc main_arg2)) :=
  (W5_of_ne m ρ c main_v3 (by decide)).trans (V4_v3 m ρ c)
/-- The message region's result array after the region. -/
theorem W5_v11 (c : Dev nD) : W5 m ρ c (Proc.devRef .tc main_v11) = (dat0 (V4 m ρ) c).arrAt 9 cfg0.N :=
  W5_arr m ρ c 9

/-- The aggregated messages: the messages summed onto their destination nodes, from the zero array. -/
theorem V6_v14 (c : Dev nD) : V6 m ρ c main_v14
    = Host.scatterAdd scatter_S50000x128_S600000x1_S600000x128_1_0_0_1
        (broadcastInDim S50000x128 ![] bcast_S_S50000x128 (constant S_ .f32 0x00000000#32))
        (broadcastInDim S600000x1 ![0] bcast_S600000_S600000x1_0 (dstIdx (m ((c : Thread nD τ).loc main_arg2))))
        ((dat0 (V4 m ρ) c).arrAt 9 cfg0.N) := by
  rw [← W5_v3 m ρ c, ← W5_v11 m ρ c]
  show StableHlo.after hostOps1 (W5 m ρ c) (Proc.devRef .tc main_v14) = _
  generalize W5 m ρ c = X
  after_results
  try rfl

theorem V6_arg0 (c : Dev nD) : V6 m ρ c main_arg0 = (m ((c : Thread nD τ).loc main_arg0)) := by
  show StableHlo.after hostOps1 (W5 m ρ c) (Proc.devRef .tc main_arg0) = _
  exact Eq.trans (by skip_stretch) (W5_arg0 m ρ c)

theorem V6_arg9 (c : Dev nD) : V6 m ρ c main_arg9 = (m ((c : Thread nD τ).loc main_arg9)) := by
  show StableHlo.after hostOps1 (W5 m ρ c) (Proc.devRef .tc main_arg9) = _
  exact Eq.trans (by skip_stretch) (W5_arg9 m ρ c)

theorem V6_v15 (c : Dev nD) : V6 m ρ c main_v15 = extractStridedSlice S128x128 ![0, 0] (m ((c : Thread nD τ).loc main_arg7)) slices_S256x128_S128x128_0_0 := by
  rw [← W5_arg7 m ρ c]
  show StableHlo.after hostOps1 (W5 m ρ c) (Proc.devRef .tc main_v15) = _
  generalize W5 m ρ c = X
  after_results
  try rfl

theorem V6_v16 (c : Dev nD) : V6 m ρ c main_v16 = extractStridedSlice S128x128 ![128, 0] (m ((c : Thread nD τ).loc main_arg7)) slices_S256x128_S128x128_128_0 := by
  rw [← W5_arg7 m ρ c]
  show StableHlo.after hostOps1 (W5 m ρ c) (Proc.devRef .tc main_v16) = _
  generalize W5 m ρ c = X
  after_results
  try rfl

theorem V6_v17 (c : Dev nD) : V6 m ρ c main_v17 = shapeCast S1x128 (m ((c : Thread nD τ).loc main_arg8)) shapeCasts_S128_S1x128 := by
  rw [← W5_arg8 m ρ c]
  show StableHlo.after hostOps1 (W5 m ρ c) (Proc.devRef .tc main_v17) = _
  generalize W5 m ρ c = X
  after_results
  try rfl

theorem V6_v18 (c : Dev nD) : V6 m ρ c main_v18 = shapeCast S1x128 (m ((c : Thread nD τ).loc main_arg10)) shapeCasts_S128_S1x128 := by
  rw [← W5_arg10 m ρ c]
  show StableHlo.after hostOps1 (W5 m ρ c) (Proc.devRef .tc main_v18) = _
  generalize W5 m ρ c = X
  after_results
  try rfl

theorem V6_v19 (c : Dev nD) : V6 m ρ c main_v19 = shapeCast S1x128 (m ((c : Thread nD τ).loc main_arg11)) shapeCasts_S128_S1x128 := by
  rw [← W5_arg11 m ρ c]
  show StableHlo.after hostOps1 (W5 m ρ c) (Proc.devRef .tc main_v19) = _
  generalize W5 m ρ c = X
  after_results
  try rfl

theorem V6_v20 (c : Dev nD) : V6 m ρ c main_v20 = shapeCast S1x128 (m ((c : Thread nD τ).loc main_arg12)) shapeCasts_S128_S1x128 := by
  rw [← W5_arg12 m ρ c]
  show StableHlo.after hostOps1 (W5 m ρ c) (Proc.devRef .tc main_v20) = _
  generalize W5 m ρ c = X
  after_results
  try rfl

/-- The result buffer after the last region is the update region's result array. -/
theorem W7_v21 (c : Dev nD) : W7 m ρ c (Proc.devRef .tc main_v21) = (dat1 (V6 m ρ) c).arrAt 9 cfg1.N :=
  W7_arr m ρ c 9

end Cert.KernelIdeal.HostK

end
-- ==== Proof.LibDense.lean ====
/-
  General facts about dense layers on the extended reals, independent of any program.

  * A matrix product with one contracted axis, accumulated into zero, read at an entry: the sum over the contracted
    index of the products of the row's and the column's entries.
  * A sum over 128 + 128 + 128 (or 128 + 128) terms split into its bands: only associativity of addition is used, so
    the statement holds on the extended reals with no finiteness assumption.
-/
import Idealize.ShloMosaic.PureOps.Ideal.Laws
import Idealize.ShloMosaic.Lib.ValueIdx

noncomputable section

namespace Cert.LibDense

open Idealize.ShloMosaic Idealize.ShloMosaic.ValueIdx

variable {M K N : Nat}

/-- The left operand's row coordinate is the output's row coordinate. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contracted index. -/
theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contracted index. -/
theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- An M×K by K×N product accumulated into the zero matrix, at entry (p, q): Σ_k a(p,k)·b(k,q). -/
theorem matmul_plain_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

/-- The host's product of the same shape, at entry (p, q): the same sum. -/
theorem dotGeneral_plain_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q)
      = ∑ k : Fin K, a (ix2 p k) * b (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

/-- A sum over a + b terms is the sum of the first a and of the last b. -/
theorem sum_split2 {α : Type} [AddCommMonoid α] (a b : Nat) (f : Fin (a + b) → α) :
    ∑ k : Fin (a + b), f k = (∑ i : Fin a, f (Fin.castAdd b i)) + (∑ i : Fin b, f (Fin.natAdd a i)) :=
  Fin.sum_univ_add f

end Cert.LibDense

end
-- ==== Proof.Region0Blocks.lean ====
/-
  The message region's windows, read as rows of the arrays.  At grid point t the three row-indexed operands and the
  result are at block (t, 0): row r of the block is row 3000·t + r of the array.  The six small operands are at block
  (0, 0) at every point and that one block is the whole array.  Every row of the result lies in the block of exactly the
  point r / 3000, and every point writes its block back, so the 200 blocks cover the 600000 rows.
-/
import proofs.«402153_j13048110646129_2_alg».proof.Proof.Gen.KernelIdeal.Frame
import Idealize.ShloMosaic.Lib.Pipeline.Value
import Idealize.ShloMosaic.Lib.ValueIdx

noncomputable section

namespace Cert.KernelIdeal.Msg

open Cert.KernelIdeal Cert.KernelIdeal.Gen
open Idealize.ShloMosaic Idealize.ShloMosaic.TcCoe Idealize.ShloMosaic.ValueIdx Idealize.SL.Sem
open Idealize.ShloMosaic.Pipeline (Dat)

/-! ## The windows' blocks as rows of the arrays -/

theorem hz : (![0, 0] : Fin 2 → Nat) = fun _ => 0 := funext fun a => by fin_cases a <;> rfl

/-- The grid has 200 points. -/
theorem hN : cfg0.N = 200 := rfl

/-- The index maps, decided over the grid: the three row-indexed operands and the result are at block (t, 0) at
    point t. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_9.index t (0 : Fin 2) = t.val ∧ win0_9.index t (1 : Fin 2) = 0) :=
  (by decide +kernel : ∀ t : Fin grid0.N, _)

/-- The six small operands are at block (0, 0) at every point. -/
theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-! ## The result's blocks cover the array -/

/-- Row r of the array lies in the block of point r / 3000, and every point writes its block back. -/
theorem cover (i : S600000x128.Idx) :
    ∃ t : Fin cfg0.N, (cfg0.win 9).flush t = true ∧ i ∈ ((cfg0.win 9).blk t).view.set := by
  have h0 : (i 0).val < 600000 := (i 0).isLt
  have h1 : (i 1).val < 128 := (i 1).isLt
  have hlt : (i 0).val / 3000 < cfg0.N := by rw [hN]; omega
  obtain ⟨-, -, -, e0, e1⟩ := idx_rows ⟨(i 0).val / 3000, hlt⟩
  have e0' : win0_9.index ⟨(i 0).val / 3000, hlt⟩ (0 : Fin 2) = (i 0).val / 3000 := e0
  refine ⟨⟨(i 0).val / 3000, hlt⟩, flush0_9 _, ?_⟩
  show i ∈ ((View.whole main_v11).slice (win0_9.rect ⟨(i 0).val / 3000, hlt⟩)).set
  rw [View.set_slice_whole, Rect.mem_set_unit]
  intro a
  match a with
  | ⟨0, _⟩ =>
    show win0_9.index ⟨(i 0).val / 3000, hlt⟩ (0 : Fin 2) * 3000 ≤ (i 0).val
      ∧ (i 0).val < win0_9.index ⟨(i 0).val / 3000, hlt⟩ (0 : Fin 2) * 3000 + 3000
    rw [e0']; omega
  | ⟨1, _⟩ =>
    show win0_9.index ⟨(i 0).val / 3000, hlt⟩ (1 : Fin 2) * 128 ≤ (i 1).val
      ∧ (i 1).val < win0_9.index ⟨(i 0).val / 3000, hlt⟩ (1 : Fin 2) * 128 + 128
    rw [e1]; omega

/-! ## The input windows' blocks -/

variable (V : (c : Dev nD) → (b : Ref sig .tc) → Buf (Elt Ideal) ((c : Thread nD τ).loc b))

/-- The source rows' block at point t, at (r, i), is the array at row 3000·t + r. -/
theorem iblk0_0_apply (c : Dev nD) (t : Fin cfg0.N) (x : S3000x128.Idx) (k : S600000x128.Idx)
    (hk0 : (k 0).val = 3000 * t.val + (x 0).val) (hk1 : (k 1).val = (x 1).val) :
    (iblk0 V c 0 t : Vec Ideal S3000x128 .f32) x = (V c main_v4 : S600000x128.Idx → Elt Ideal .f32) k := by
  obtain ⟨⟨e0, e1⟩, -⟩ := idx_rows t
  unfold iblk0
  rw [View.read_apply]
  show V c main_v4 _ = V c main_v4 _
  congr 1
  funext a
  apply Fin.ext
  match a with
  | ⟨0, _⟩ => show win0_0.index t (0 : Fin 2) * 3000 + 1 * (x 0).val = (k 0).val; rw [e0, hk0]; omega
  | ⟨1, _⟩ => show win0_0.index t (1 : Fin 2) * 128 + 1 * (x 1).val = (k 1).val; rw [e1, hk1]; omega

/-- The destination rows' block likewise. -/
theorem iblk0_1_apply (c : Dev nD) (t : Fin cfg0.N) (x : S3000x128.Idx) (k : S600000x128.Idx)
    (hk0 : (k 0).val = 3000 * t.val + (x 0).val) (hk1 : (k 1).val = (x 1).val) :
    (iblk0 V c 1 t : Vec Ideal S3000x128 .f32) x = (V c main_v5 : S600000x128.Idx → Elt Ideal .f32) k := by
  obtain ⟨-, ⟨e0, e1⟩, -⟩ := idx_rows t
  unfold iblk0
  rw [View.read_apply]
  show V c main_v5 _ = V c main_v5 _
  congr 1
  funext a
  apply Fin.ext
  match a with
  | ⟨0, _⟩ => show win0_1.index t (0 : Fin 2) * 3000 + 1 * (x 0).val = (k 0).val; rw [e0, hk0]; omega
  | ⟨1, _⟩ => show win0_1.index t (1 : Fin 2) * 128 + 1 * (x 1).val = (k 1).val; rw [e1, hk1]; omega

/-- The edge rows' block likewise. -/
theorem iblk0_2_apply (c : Dev nD) (t : Fin cfg0.N) (x : S3000x128.Idx) (k : S600000x128.Idx)
    (hk0 : (k 0).val = 3000 * t.val + (x 0).val) (hk1 : (k 1).val = (x 1).val) :
    (iblk0 V c 2 t : Vec Ideal S3000x128 .f32) x = (V c main_arg1 : S600000x128.Idx → Elt Ideal .f32) k := by
  obtain ⟨-, -, ⟨e0, e1⟩, -⟩ := idx_rows t
  unfold iblk0
  rw [View.read_apply]
  show V c main_arg1 _ = V c main_arg1 _
  congr 1
  funext a
  apply Fin.ext
  match a with
  | ⟨0, _⟩ => show win0_2.index t (0 : Fin 2) * 3000 + 1 * (x 0).val = (k 0).val; rw [e0, hk0]; omega
  | ⟨1, _⟩ => show win0_2.index t (1 : Fin 2) * 128 + 1 * (x 1).val = (k 1).val; rw [e1, hk1]; omega

/-- Each small operand's one block is the whole array: the three bands of the first weight, -/
theorem iblk0_3_eq (c : Dev nD) (t : Fin cfg0.N) :
    (iblk0 V c 3 t : Vec Ideal S128x128 .f32) = (V c main_v6 : S128x128.Idx → Elt Ideal .f32) := by
  obtain ⟨⟨e0, e1⟩, -⟩ := idx_whole t
  funext x
  unfold iblk0
  rw [View.read_apply]
  show V c main_v6 _ = V c main_v6 _
  congr 1
  funext a
  apply Fin.ext
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

theorem iblk0_4_eq (c : Dev nD) (t : Fin cfg0.N) :
    (iblk0 V c 4 t : Vec Ideal S128x128 .f32) = (V c main_v7 : S128x128.Idx → Elt Ideal .f32) := by
  obtain ⟨-, ⟨e0, e1⟩, -⟩ := idx_whole t
  funext x
  unfold iblk0
  rw [View.read_apply]
  show V c main_v7 _ = V c main_v7 _
  congr 1
  funext a
  apply Fin.ext
  match a with
  | ⟨0, _⟩ => show win0_4.index t (0 : Fin 2) * 128 + 1 * (x 0).val = (x 0).val; rw [e0]; omega
  | ⟨1, _⟩ => show win0_4.index t (1 : Fin 2) * 128 + 1 * (x 1).val = (x 1).val; rw [e1]; omega

theorem iblk0_5_eq (c : Dev nD) (t : Fin cfg0.N) :
    (iblk0 V c 5 t : Vec Ideal S128x128 .f32) = (V c main_v8 : S128x128.Idx → Elt Ideal .f32) := by
  obtain ⟨-, -, ⟨e0, e1⟩, -⟩ := idx_whole t
  funext x
  unfold iblk0
  rw [View.read_apply]
  show V c main_v8 _ = V c main_v8 _
  congr 1
  funext a
  apply Fin.ext
  match a with
  | ⟨0, _⟩ => show win0_5.index t (0 : Fin 2) * 128 + 1 * (x 0).val = (x 0).val; rw [e0]; omega
  | ⟨1, _⟩ => show win0_5.index t (1 : Fin 2) * 128 + 1 * (x 1).val = (x 1).val; rw [e1]; omega

/-- the first bias row, -/
theorem iblk0_6_eq (c : Dev nD) (t : Fin cfg0.N) :
    (iblk0 V c 6 t : Vec Ideal S1x128 .f32) = (V c main_v9 : S1x128.Idx → Elt Ideal .f32) := by
  obtain ⟨-, -, -, ⟨e0, e1⟩, -⟩ := idx_whole t
  funext x
  unfold iblk0
  rw [View.read_apply]
  show V c main_v9 _ = V c main_v9 _
  congr 1
  funext a
  apply Fin.ext
  match a with
  | ⟨0, _⟩ => show win0_6.index t (0 : Fin 2) * 1 + 1 * (x 0).val = (x 0).val; rw [e0]; omega
  | ⟨1, _⟩ => show win0_6.index t (1 : Fin 2) * 128 + 1 * (x 1).val = (x 1).val; rw [e1]; omega

/-- the second weight, -/
theorem iblk0_7_eq (c : Dev nD) (t : Fin cfg0.N) :
    (iblk0 V c 7 t : Vec Ideal S128x128 .f32) = (V c main_arg5 : S128x128.Idx → Elt Ideal .f32) := by
  obtain ⟨-, -, -, -, ⟨e0, e1⟩, -⟩ := idx_whole t
  funext x
  unfold iblk0
  rw [View.read_apply]
  show V c main_arg5 _ = V c main_arg5 _
  congr 1
  funext a
  apply Fin.ext
  match a with
  | ⟨0, _⟩ => show win0_7.index t (0 : Fin 2) * 128 + 1 * (x 0).val = (x 0).val; rw [e0]; omega
  | ⟨1, _⟩ => show win0_7.index t (1 : Fin 2) * 128 + 1 * (x 1).val = (x 1).val; rw [e1]; omega

/-- and the second bias row. -/
theorem iblk0_8_eq (c : Dev nD) (t : Fin cfg0.N) :
    (iblk0 V c 8 t : Vec Ideal S1x128 .f32) = (V c main_v10 : S1x128.Idx → Elt Ideal .f32) := by
  obtain ⟨-, -, -, -, -, e0, e1⟩ := idx_whole t
  funext x
  unfold iblk0
  rw [View.read_apply]
  show V c main_v10 _ = V c main_v10 _
  congr 1
  funext a
  apply Fin.ext
  match a with
  | ⟨0, _⟩ => show win0_8.index t (0 : Fin 2) * 1 + 1 * (x 0).val = (x 0).val; rw [e0]; omega
  | ⟨1, _⟩ => show win0_8.index t (1 : Fin 2) * 128 + 1 * (x 1).val = (x 1).val; rw [e1]; omega

end Cert.KernelIdeal.Msg

end
-- ==== Proof.Region0.lean ====
/-
  The message region.  Each grid point t of 200 stages rows 3000·t … 3000·t + 2999 of the three row-indexed operands
  (source rows, destination rows, edge rows) and the whole of the six small operands, and writes back the same rows of
  the result.  Because a message row depends only on the same row of the three row-indexed operands, what a point
  writes is the block of the whole-array message function, and the 200 blocks tile the 600000 rows.
-/
import proofs.«402153_j13048110646129_2_alg».proof.Proof.Gen.KernelIdeal.Frame
import proofs.«402153_j13048110646129_2_alg».proof.Proof.Spec
import proofs.«402153_j13048110646129_2_alg».proof.Proof.LibDense
import proofs.«402153_j13048110646129_2_alg».proof.Proof.Region0Blocks
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Msg

open Cert.KernelIdeal Cert.KernelIdeal.Gen
open Idealize.ShloMosaic Idealize.ShloMosaic.TcCoe Idealize.ShloMosaic.ValueIdx Idealize.SL.Sem
open Idealize.ShloMosaic.Pipeline (Dat)

/-! ## The body's arithmetic, entry by entry -/

/-- The contraction of the four products: rows by columns, one contracted axis of 128. -/
theorem dot_eq_plain : dot_S3000x128_S128x128_S3000x128_1_0_0_1_n_n = DotDims.plain 3000 128 128 := rfl

/-- The logistic function of a vector at an index is the logistic function of the element. -/
theorem logistic_apply {s : Shape} {φ : FTy} (a : FVec Ideal s φ) (i : s.Idx) : logistic a i = Ideal.logistic (a i) := rfl

/-- A 3000×128 by 128×128 product accumulated into zero, at entry (p, q): Σ_k a(p,k)·b(k,q). -/
theorem mm_apply {φ₁ φ₂ : FTy} (a : FVec Ideal S3000x128 φ₁) (b : FVec Ideal S128x128 φ₂) (p : Fin 3000) (q : Fin 128) :
    matmul (F := Ideal) dot_S3000x128_S128x128_S3000x128_1_0_0_1_n_n none a b (constant S3000x128 .f32 0x00000000#32) (ix2 p q)
      = ∑ k : Fin 128, a (ix2 p k) * b (ix2 k q) := by
  rw [dot_eq_plain]
  exact Cert.LibDense.matmul_plain_zero_apply none a b p q

/-- The first layer at entry (p, k): the three products added left to right, plus the bias row. Rounding the operands
    to the narrower format changes nothing on the extended reals. -/
theorem hid_apply (x0 x1 x2 : Vec Ideal S3000x128 .f32) (x3 x4 x5 : Vec Ideal S128x128 .f32) (x6 : Vec Ideal S1x128 .f32)
    (hb : FTy.bits .bf16 < FTy.bits .f32) (hbc : S1x128.Broadcasts S3000x128) (p : Fin 3000) (k : Fin 128) :
    addf (addf (addf
        (matmul (F := Ideal) dot_S3000x128_S128x128_S3000x128_1_0_0_1_n_n none (truncf .bf16 x0 hb) (truncf .bf16 x3 hb) (constant S3000x128 .f32 0x00000000#32))
        (matmul (F := Ideal) dot_S3000x128_S128x128_S3000x128_1_0_0_1_n_n none (truncf .bf16 x1 hb) (truncf .bf16 x4 hb) (constant S3000x128 .f32 0x00000000#32)))
        (matmul (F := Ideal) dot_S3000x128_S128x128_S3000x128_1_0_0_1_n_n none (truncf .bf16 x2 hb) (truncf .bf16 x5 hb) (constant S3000x128 .f32 0x00000000#32)))
        (broadcastTo S3000x128 x6 hbc) (ix2 p k)
      = Cert.Spec.msgHid x0 x1 x2 x3 x4 x5 x6 p k := by
  rw [addf_apply, addf_apply, addf_apply, mm_apply, mm_apply, mm_apply, broadcastTo_1b_ab_apply]
  rfl

/-- The body's arithmetic on a block of 3000 rows is the message function of the blocks. -/
theorem pay_eq (x0 x1 x2 : Vec Ideal S3000x128 .f32) (x3 x4 x5 : Vec Ideal S128x128 .f32) (x6 : Vec Ideal S1x128 .f32)
    (x7 : Vec Ideal S128x128 .f32) (x8 : Vec Ideal S1x128 .f32) :
    k0_pay1 (F := Ideal) x0 x1 x2 x3 x4 x5 x6 x7 x8 = Cert.Spec.msg (R := 3000) x0 x1 x2 x3 x4 x5 x6 x7 x8 := by
  funext j
  obtain ⟨p, q, rfl⟩ : ∃ (p : Fin 3000) (q : Fin 128), j = ix2 p q := ⟨j 0, j 1, eq_ix2 j⟩
  rw [Cert.Spec.msg_ix2]
  unfold k0_pay1
  simp only [shapeCast_self]
  rw [addf_apply, broadcastTo_1b_ab_apply, mm_apply]
  unfold Cert.Spec.msgAt
  congr 1
  refine Finset.sum_congr rfl fun k _ => ?_
  rw [truncf_apply, truncf_apply, mulf_apply, logistic_apply, hid_apply]
  rfl

/-! ## A message row reads its own row of the row-indexed operands only -/

/-- The message at (e, j) is unchanged when the three row-indexed operands are replaced by arrays, of any number of
    rows, whose row e' is the row e of the old ones. -/
theorem msgAt_congr {R R' : Nat} (hs hd he : Cert.Spec.Mat R 128) (hs' hd' he' : Cert.Spec.Mat R' 128)
    (wa wb wc : Cert.Spec.Mat 128 128) (b1 : Cert.Spec.Mat 1 128) (w2 : Cert.Spec.Mat 128 128) (b2 : Cert.Spec.Mat 1 128)
    (e : Fin R) (e' : Fin R') (j j' : Fin 128) (hj : j = j')
    (h1 : ∀ i : Fin 128, hs (ix2 e i) = hs' (ix2 e' i)) (h2 : ∀ i : Fin 128, hd (ix2 e i) = hd' (ix2 e' i))
    (h3 : ∀ i : Fin 128, he (ix2 e i) = he' (ix2 e' i)) :
    Cert.Spec.msgAt hs hd he wa wb wc b1 w2 b2 e j = Cert.Spec.msgAt hs' hd' he' wa wb wc b1 w2 b2 e' j' := by
  subst hj
  unfold Cert.Spec.msgAt Cert.Spec.msgHid
  simp only [h1, h2, h3]

variable (V : (c : Dev nD) → (b : Ref sig .tc) → Buf (Elt Ideal) ((c : Thread nD τ).loc b))

/-! ## From blocks to the array -/

/-- The whole-array message function of the region's operand arrays. -/
abbrev G (c : Dev nD) : S600000x128.Idx → Elt Ideal .f32 :=
  Cert.Spec.msg (R := 600000) (V c main_v4) (V c main_v5) (V c main_arg1) (V c main_v6) (V c main_v7) (V c main_v8)
    (V c main_v9) (V c main_arg5) (V c main_v10)

/-- What point t writes back is block t of the whole-array message function: row r of the block is row 3000·t + r of
    the arrays, and a message row reads only its own row. -/
theorem flushed_eq (c : Dev nD) (t : Fin cfg0.N) :
    (dat0 (F := Ideal) V c).flushed 9 t = ((cfg0.win 9).blk t).view.read (Elt Ideal) (G V c) := by
  show (cfg0.win 9).cut (grid0.coords t) ((dat0 V c).after 9 t) = _
  rw [after0_9]
  unfold out0_9
  rw [View.canon_unit_zero hz]
  simp only [View.ld_unit_zero (S := S3000x128) hz, View.ld_unit_zero (S := S128x128) hz, View.ld_unit_zero (S := S1x128) hz]
  rw [iblk0_3_eq V c t, iblk0_4_eq V c t, iblk0_5_eq V c t, iblk0_6_eq V c t, iblk0_7_eq V c t, iblk0_8_eq V c t, pay_eq]
  obtain ⟨-, -, -, e0, e1⟩ := idx_rows t
  have ht : t.val < 200 := hN ▸ t.isLt
  funext y
  have hy0 : (y 0).val < 3000 := (y 0).isLt
  have hy1 : (y 1).val < 128 := (y 1).isLt
  show Cert.Spec.msgAt (iblk0 V c 0 t) (iblk0 V c 1 t) (iblk0 V c 2 t) (V c main_v6) (V c main_v7) (V c main_v8)
        (V c main_v9) (V c main_arg5) (V c main_v10) ⟨(y 0).val, hy0⟩ ⟨(y 1).val, hy1⟩
      = Cert.Spec.msgAt (V c main_v4) (V c main_v5) (V c main_arg1) (V c main_v6) (V c main_v7) (V c main_v8)
        (V c main_v9) (V c main_arg5) (V c main_v10)
        ⟨win0_9.index t (0 : Fin 2) * 3000 + 1 * (y 0).val, by rw [e0]; omega⟩
        ⟨win0_9.index t (1 : Fin 2) * 128 + 1 * (y 1).val, by rw [e1]; omega⟩
  refine msgAt_congr _ _ _ _ _ _ _ _ _ _ _ _ _ _ _ _ (Fin.ext ?_) (fun i => ?_) (fun i => ?_) (fun i => ?_)
  · show (y 1).val = win0_9.index t (1 : Fin 2) * 128 + 1 * (y 1).val
    rw [e1]; omega
  · refine iblk0_0_apply V c t _ _ ?_ rfl
    show win0_9.index t (0 : Fin 2) * 3000 + 1 * (y 0).val = 3000 * t.val + (y 0).val
    rw [e0]; omega
  · refine iblk0_1_apply V c t _ _ ?_ rfl
    show win0_9.index t (0 : Fin 2) * 3000 + 1 * (y 0).val = 3000 * t.val + (y 0).val
    rw [e0]; omega
  · refine iblk0_2_apply V c t _ _ ?_ rfl
    show win0_9.index t (0 : Fin 2) * 3000 + 1 * (y 0).val = 3000 * t.val + (y 0).val
    rw [e0]; omega

/-- After the region the result array holds the message function of the region's operand arrays. -/
theorem final (c : Dev nD) :
    (dat0 (F := Ideal) V c).arrAt 9 cfg0.N
      = Cert.Spec.msg (R := 600000) (V c main_v4) (V c main_v5) (V c main_arg1) (V c main_v6) (V c main_v7) (V c main_v8)
          (V c main_v9) (V c main_arg5) (V c main_v10) :=
  (dat0 (F := Ideal) V c).arrAt_eq_of_cover 9 (G V c) (fun t _ => flushed_eq V c t) cover

end Cert.KernelIdeal.Msg

end
-- ==== Proof.Region1.lean ====
/-
  The update region.  Each grid point t of 25 stages rows 2000·t … 2000·t + 1999 of the node features and of the
  aggregated messages and the whole of the seven small operands, and writes back the same rows of the result: the
  update network, the residual and the layer norm of those rows.  A result row depends only on the same row of the two
  row-indexed operands, so what a point writes is the block of the whole-array function, and the 25 blocks tile the
  50000 rows.
-/
import proofs.«402153_j13048110646129_2_alg».proof.Proof.Gen.KernelIdeal.Frame
import proofs.«402153_j13048110646129_2_alg».proof.Proof.Spec
import proofs.«402153_j13048110646129_2_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Upd

open Cert.KernelIdeal Cert.KernelIdeal.Gen
open Idealize.ShloMosaic Idealize.ShloMosaic.TcCoe Idealize.ShloMosaic.ValueIdx Idealize.SL.Sem
open Idealize.ShloMosaic.Pipeline (Dat)

/-! ## The body's arithmetic, read index by index -/

/-- The vector logistic at an index is the scalar logistic of the element. -/
theorem logistic_apply {s : Shape} {φ : FTy} (a : FVec Ideal s φ) (i : s.Idx) : logistic a i = Ideal.logistic (a i) := rfl
/-- The vector reciprocal square root at an index is the scalar one of the element. -/
theorem rsqrt_apply {s : Shape} {φ : FTy} (a : FVec Ideal s φ) (i : s.Idx) : rsqrt a i = Ideal.rsqrt (a i) := rfl

/-- The printed dimension numbers of the block products are the plain ones: contract the left operand's columns with
    the right operand's rows. -/
theorem dot_eq_plain : dot_S2000x128_S128x128_S2000x128_1_0_0_1_n_n = DotDims.plain 2000 128 128 := rfl

/-- The hidden layer before its activation, at row p and unit k of a block: the two band products and the bias. -/
theorem hid_apply (x0 x1 : Vec Ideal S2000x128 .f32) (x2 x3 : Vec Ideal S128x128 .f32) (x4 : Vec Ideal S1x128 .f32)
    (p : Fin 2000) (k : Fin 128) :
    addf (addf
        (matmul dot_S2000x128_S128x128_S2000x128_1_0_0_1_n_n none (truncf FTy.bf16 x0 bitsLt_bf16_f32)
          (truncf FTy.bf16 x2 bitsLt_bf16_f32) (constant (F := Ideal) S2000x128 FTy.f32 0x00000000#32))
        (matmul dot_S2000x128_S128x128_S2000x128_1_0_0_1_n_n none (truncf FTy.bf16 x1 bitsLt_bf16_f32)
          (truncf FTy.bf16 x3 bitsLt_bf16_f32) (constant (F := Ideal) S2000x128 FTy.f32 0x00000000#32)))
      (broadcastTo S2000x128 x4 broadcasts_S1x128_S2000x128) (ix2 p k)
      = Cert.Spec.updHid (R := 2000) x0 x1 x2 x3 x4 p k := by
  rw [addf_apply, addf_apply, broadcastTo_1b_ab_apply]
  simp only [matmul]
  rw [dot_eq_plain, Cert.LibDense.matmul_plain_zero_apply, Cert.LibDense.matmul_plain_zero_apply]
  rfl

/-- The residual block at row p and feature q. -/
theorem resid_apply (x0 x1 : Vec Ideal S2000x128 .f32) (x2 x3 : Vec Ideal S128x128 .f32) (x4 : Vec Ideal S1x128 .f32)
    (x5 : Vec Ideal S128x128 .f32) (x6 : Vec Ideal S1x128 .f32) (p : Fin 2000) (q : Fin 128) :
    k1_pay2 (F := Ideal) x0 x1 x2 x3 x4 x5 x6 (ix2 p q) = Cert.Spec.resid (R := 2000) x0 x1 x2 x3 x4 x5 x6 p q := by
  unfold k1_pay2
  simp only [shapeCast_self]
  rw [addf_apply, addf_apply, broadcastTo_1b_ab_apply]
  simp only [matmul]
  rw [dot_eq_plain, Cert.LibDense.matmul_plain_zero_apply]
  unfold Cert.Spec.resid
  refine congrArg (fun z => x0 (ix2 p q) + (z + x6 (ix2 (0 : Fin 1) q))) (Finset.sum_congr rfl fun k _ => ?_)
  rw [truncf_apply, truncf_apply, mulf_apply, logistic_apply]
  rw [← dot_eq_plain, hid_apply]
  rfl

/-- A sum over the columns of a matrix, read at row p: the sum over the column index of the row's entries. -/
theorem rowSum_apply {a b : Nat} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] (⟨1, ![a]⟩ : Shape) src acc h hφ hacc (ix1 p) = ∑ k : Fin b, src (ix2 p k) := by
  rw [Ideal.multiReduction_add_single]
  refine Finset.sum_congr rfl fun k _ => congrArg src ?_
  funext c
  match c with
  | ⟨0, _⟩ => rfl
  | ⟨1, _⟩ => rfl

/-- A vector cast to a one-column matrix reads, at (p, u), the vector at p. -/
theorem shapeCast_a_a1_apply {α : Type} {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A one-column matrix broadcast along its rows reads, at (p, q), the column at p. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The row mean at row p. -/
theorem mean_apply (x0 x1 : Vec Ideal S2000x128 .f32) (x2 x3 : Vec Ideal S128x128 .f32) (x4 : Vec Ideal S1x128 .f32)
    (x5 : Vec Ideal S128x128 .f32) (x6 : Vec Ideal S1x128 .f32) (p : Fin 2000) (u : Fin 1) :
    k1_pay3 (F := Ideal) x0 x1 x2 x3 x4 x5 x6 (ix2 p u) = Cert.Spec.mean (R := 2000) x0 x1 x2 x3 x4 x5 x6 p := by
  unfold k1_pay3
  rw [divf_apply, shapeCast_a_a1_apply, broadcast_apply]
  exact congrArg (fun z => Ideal.div z Cert.Spec.c128)
    ((rowSum_apply _ _ _ _ _ p).trans (Finset.sum_congr rfl fun k _ => resid_apply x0 x1 x2 x3 x4 x5 x6 p k))

/-- The sum of squared deviations from the row mean, at row p. -/
theorem sqdev_apply (x0 x1 : Vec Ideal S2000x128 .f32) (x2 x3 : Vec Ideal S128x128 .f32) (x4 : Vec Ideal S1x128 .f32)
    (x5 : Vec Ideal S128x128 .f32) (x6 : Vec Ideal S1x128 .f32) (p : Fin 2000) (u : Fin 1) :
    k1_pay4 (F := Ideal) x0 x1 x2 x3 x4 x5 x6 (ix2 p u)
      = ∑ j : Fin 128, (Cert.Spec.resid (R := 2000) x0 x1 x2 x3 x4 x5 x6 p j - Cert.Spec.mean (R := 2000) x0 x1 x2 x3 x4 x5 x6 p)
          * (Cert.Spec.resid (R := 2000) x0 x1 x2 x3 x4 x5 x6 p j - Cert.Spec.mean (R := 2000) x0 x1 x2 x3 x4 x5 x6 p) := by
  unfold k1_pay4
  rw [shapeCast_a_a1_apply]
  refine (rowSum_apply _ _ _ _ _ p).trans (Finset.sum_congr rfl fun j _ => ?_)
  rw [mulf_apply, subf_apply, broadcastTo_a1_ab_apply, resid_apply, mean_apply]

/-- The body's arithmetic on a block of 2000 rows is the update function of the blocks. -/
theorem pay_eq (x0 x1 : Vec Ideal S2000x128 .f32) (x2 x3 : Vec Ideal S128x128 .f32) (x4 : Vec Ideal S1x128 .f32)
    (x5 : Vec Ideal S128x128 .f32) (x6 x7 x8 : Vec Ideal S1x128 .f32) :
    k1_pay1 (F := Ideal) (k1_pay2 x0 x1 x2 x3 x4 x5 x6) (k1_pay3 x0 x1 x2 x3 x4 x5 x6) (k1_pay4 x0 x1 x2 x3 x4 x5 x6)
        (Scalar.ofBits .f32 0x43000000#32) x7 x8
      = Cert.Spec.upd (R := 2000) x0 x1 x2 x3 x4 x5 x6 x7 x8 := by
  funext j
  obtain ⟨p, q, rfl⟩ : ∃ (p : Fin 2000) (q : Fin 128), j = ix2 p q := ⟨j 0, j 1, eq_ix2 j⟩
  rw [Cert.Spec.upd_ix2]
  unfold k1_pay1
  simp only [shapeCast_self]
  rw [addf_apply, mulf_apply, mulf_apply, subf_apply, broadcastTo_1b_ab_apply, broadcastTo_1b_ab_apply,
    broadcastTo_a1_ab_apply, broadcastTo_a1_ab_apply, rsqrt_apply, addf_apply, divf_apply, broadcast_apply, broadcast_apply,
    resid_apply, mean_apply, sqdev_apply]
  rfl

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the two row-indexed operands and the result move one block of rows
    per point, the seven small operands stay at their one block. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_9.index t (0 : Fin 2) = t.val ∧ win1_9.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

/-- The node features' block at point t is rows 2000 t … 2000 t + 1999 of the array. -/
theorem iblk0_apply (c : Dev nD) (t : Fin cfg1.N) (p : Fin 2000) (i : Fin 128) (n : Fin 50000)
    (hn : n.val = 2000 * t.val + p.val) :
    (iblk1 V c 0 t : Vec Ideal S2000x128 .f32) (ix2 p i) = (V c main_arg0 : S50000x128.Idx → EReal) (ix2 n i) := by
  obtain ⟨⟨e0, e1⟩, -⟩ := idx_facts t
  unfold iblk1
  rw [View.read_apply]
  show V c main_arg0 _ = V c main_arg0 _
  congr 1
  funext a
  apply Fin.ext
  match a with
  | ⟨0, _⟩ => show win1_0.index t 0 * 2000 + 1 * p.val = n.val; rw [e0, hn]; omega
  | ⟨1, _⟩ => show win1_0.index t 1 * 128 + 1 * i.val = i.val; rw [e1]; omega

/-- The aggregated messages' block at point t is rows 2000 t … 2000 t + 1999 of the array. -/
theorem iblk1_apply (c : Dev nD) (t : Fin cfg1.N) (p : Fin 2000) (i : Fin 128) (n : Fin 50000)
    (hn : n.val = 2000 * t.val + p.val) :
    (iblk1 V c 1 t : Vec Ideal S2000x128 .f32) (ix2 p i) = (V c main_v14 : S50000x128.Idx → EReal) (ix2 n i) := by
  obtain ⟨-, ⟨e0, e1⟩, -⟩ := idx_facts t
  unfold iblk1
  rw [View.read_apply]
  show V c main_v14 _ = V c main_v14 _
  congr 1
  funext a
  apply Fin.ext
  match a with
  | ⟨0, _⟩ => show win1_1.index t 0 * 2000 + 1 * p.val = n.val; rw [e0, hn]; omega
  | ⟨1, _⟩ => show win1_1.index t 1 * 128 + 1 * i.val = i.val; rw [e1]; omega

/-- Each small operand's one block is the whole array. -/
theorem iblk2_eq (c : Dev nD) (t : Fin cfg1.N) :
    (iblk1 V c 2 t : Vec Ideal S128x128 .f32) = (V c main_v15 : S128x128.Idx → EReal) := by
  obtain ⟨-, -, -, ⟨e0, e1⟩, -⟩ := idx_facts t
  funext y
  unfold iblk1
  rw [View.read_apply]
  show V c main_v15 _ = V c main_v15 _
  congr 1
  funext a
  apply Fin.ext
  match a with
  | ⟨0, _⟩ => show win1_2.index t 0 * 128 + 1 * (y 0).val = (y 0).val; rw [e0]; omega
  | ⟨1, _⟩ => show win1_2.index t 1 * 128 + 1 * (y 1).val = (y 1).val; rw [e1]; omega

theorem iblk3_eq (c : Dev nD) (t : Fin cfg1.N) :
    (iblk1 V c 3 t : Vec Ideal S128x128 .f32) = (V c main_v16 : S128x128.Idx → EReal) := by
  obtain ⟨-, -, -, -, ⟨e0, e1⟩, -⟩ := idx_facts t
  funext y
  unfold iblk1
  rw [View.read_apply]
  show V c main_v16 _ = V c main_v16 _
  congr 1
  funext a
  apply Fin.ext
  match a with
  | ⟨0, _⟩ => show win1_3.index t 0 * 128 + 1 * (y 0).val = (y 0).val; rw [e0]; omega
  | ⟨1, _⟩ => show win1_3.index t 1 * 128 + 1 * (y 1).val = (y 1).val; rw [e1]; omega

theorem iblk4_eq (c : Dev nD) (t : Fin cfg1.N) :
    (iblk1 V c 4 t : Vec Ideal S1x128 .f32) = (V c main_v17 : S1x128.Idx → EReal) := by
  obtain ⟨-, -, -, -, -, ⟨e0, e1⟩, -⟩ := idx_facts t
  funext y
  unfold iblk1
  rw [View.read_apply]
  show V c main_v17 _ = V c main_v17 _
  congr 1
  funext a
  apply Fin.ext
  match a with
  | ⟨0, _⟩ => show win1_4.index t 0 * 1 + 1 * (y 0).val = (y 0).val; rw [e0]; omega
  | ⟨1, _⟩ => show win1_4.index t 1 * 128 + 1 * (y 1).val = (y 1).val; rw [e1]; omega

theorem iblk5_eq (c : Dev nD) (t : Fin cfg1.N) :
    (iblk1 V c 5 t : Vec Ideal S128x128 .f32) = (V c main_arg9 : S128x128.Idx → EReal) := by
  obtain ⟨-, -, -, -, -, -, ⟨e0, e1⟩, -⟩ := idx_facts t
  funext y
  unfold iblk1
  rw [View.read_apply]
  show V c main_arg9 _ = V c main_arg9 _
  congr 1
  funext a
  apply Fin.ext
  match a with
  | ⟨0, _⟩ => show win1_5.index t 0 * 128 + 1 * (y 0).val = (y 0).val; rw [e0]; omega
  | ⟨1, _⟩ => show win1_5.index t 1 * 128 + 1 * (y 1).val = (y 1).val; rw [e1]; omega

theorem iblk6_eq (c : Dev nD) (t : Fin cfg1.N) :
    (iblk1 V c 6 t : Vec Ideal S1x128 .f32) = (V c main_v18 : S1x128.Idx → EReal) := by
  obtain ⟨-, -, -, -, -, -, -, ⟨e0, e1⟩, -⟩ := idx_facts t
  funext y
  unfold iblk1
  rw [View.read_apply]
  show V c main_v18 _ = V c main_v18 _
  congr 1
  funext a
  apply Fin.ext
  match a with
  | ⟨0, _⟩ => show win1_6.index t 0 * 1 + 1 * (y 0).val = (y 0).val; rw [e0]; omega
  | ⟨1, _⟩ => show win1_6.index t 1 * 128 + 1 * (y 1).val = (y 1).val; rw [e1]; omega

theorem iblk7_eq (c : Dev nD) (t : Fin cfg1.N) :
    (iblk1 V c 7 t : Vec Ideal S1x128 .f32) = (V c main_v19 : S1x128.Idx → EReal) := by
  obtain ⟨-, -, -, -, -, -, -, -, ⟨e0, e1⟩, -⟩ := idx_facts t
  funext y
  unfold iblk1
  rw [View.read_apply]
  show V c main_v19 _ = V c main_v19 _
  congr 1
  funext a
  apply Fin.ext
  match a with
  | ⟨0, _⟩ => show win1_7.index t 0 * 1 + 1 * (y 0).val = (y 0).val; rw [e0]; omega
  | ⟨1, _⟩ => show win1_7.index t 1 * 128 + 1 * (y 1).val = (y 1).val; rw [e1]; omega

theorem iblk8_eq (c : Dev nD) (t : Fin cfg1.N) :
    (iblk1 V c 8 t : Vec Ideal S1x128 .f32) = (V c main_v20 : S1x128.Idx → EReal) := by
  obtain ⟨-, -, -, -, -, -, -, -, -, e0, e1⟩ := idx_facts t
  funext y
  unfold iblk1
  rw [View.read_apply]
  show V c main_v20 _ = V c main_v20 _
  congr 1
  funext a
  apply Fin.ext
  match a with
  | ⟨0, _⟩ => show win1_8.index t 0 * 1 + 1 * (y 0).val = (y 0).val; rw [e0]; omega
  | ⟨1, _⟩ => show win1_8.index t 1 * 128 + 1 * (y 1).val = (y 1).val; rw [e1]; omega

open Cert.Spec in
/-- A normalised row depends on the two row-indexed operands only through that row: arrays that agree on the rows
    used give the same value. -/
theorem updAt_rows {R R' : Nat} (hn ag : Mat R 128) (hn' ag' : Mat R' 128) (ua ub : Mat 128 128) (c1 : Mat 1 128)
    (u2 : Mat 128 128) (c2 g bt : Mat 1 128) (n : Fin R) (n' : Fin R')
    (h1 : ∀ i : Fin 128, hn (ix2 n i) = hn' (ix2 n' i)) (h2 : ∀ i : Fin 128, ag (ix2 n i) = ag' (ix2 n' i)) (j : Fin 128) :
    updAt hn ag ua ub c1 u2 c2 g bt n j = updAt hn' ag' ua ub c1 u2 c2 g bt n' j := by
  have hh : ∀ k, updHid hn ag ua ub c1 n k = updHid hn' ag' ua ub c1 n' k := fun k => by
    unfold updHid; simp only [h1, h2]
  have hr : ∀ q, resid hn ag ua ub c1 u2 c2 n q = resid hn' ag' ua ub c1 u2 c2 n' q := fun q => by
    unfold resid; simp only [h1, hh]
  have hm : mean hn ag ua ub c1 u2 c2 n = mean hn' ag' ua ub c1 u2 c2 n' := by
    unfold mean; simp only [hr]
  have hv : var hn ag ua ub c1 u2 c2 n = var hn' ag' ua ub c1 u2 c2 n' := by
    unfold var; simp only [hr, hm]
  unfold updAt
  rw [hr, hm, hv]

/-- What the region leaves in the result array: the update function of the operand arrays as the region finds them. -/
abbrev G (c : Dev nD) : Cert.Spec.Mat 50000 128 :=
  Cert.Spec.upd (R := 50000) (V c main_arg0) (V c main_v14) (V c main_v15) (V c main_v16) (V c main_v17) (V c main_arg9)
    (V c main_v18) (V c main_v19) (V c main_v20)

/-- What point t writes back is block t of the update function of the arrays. -/
theorem flushed_eq (c : Dev nD) (t : Fin cfg1.N) :
    (dat1 V c).flushed 9 t = ((cfg1.win 9).blk t).view.read (Elt Ideal) (G V c) := by
  show (cfg1.win 9).cut (grid1.coords t) ((dat1 V c).after 9 t) = _
  rw [after1_9]
  unfold out1_9
  rw [View.canon_unit_zero hz]
  simp only [View.ld_unit_zero (S := S2000x128) hz, View.ld_unit_zero (S := S128x128) hz, View.ld_unit_zero (S := S1x128) hz]
  rw [pay_eq, iblk2_eq, iblk3_eq, iblk4_eq, iblk5_eq, iblk6_eq, iblk7_eq, iblk8_eq]
  funext y
  have hy0 : (y 0).val < 2000 := (y 0).isLt
  have hy1 : (y 1).val < 128 := (y 1).isLt
  have ht : t.val < 25 := t.isLt
  obtain ⟨-, -, ⟨e0, e1⟩, -⟩ := idx_facts t
  have hL : (cfg1.win 9).xinj (grid1.coords t) y = ix2 (⟨(y 0).val, hy0⟩ : Fin 2000) (⟨(y 1).val, hy1⟩ : Fin 128) := by
    funext a
    match a with
    | ⟨0, _⟩ => rfl
    | ⟨1, _⟩ => rfl
  have hR : ((cfg1.win 9).blk t).view.emb y
      = ix2 (⟨2000 * t.val + (y 0).val, by omega⟩ : Fin 50000) (⟨(y 1).val, hy1⟩ : Fin 128) := by
    funext a
    apply Fin.ext
    match a with
    | ⟨0, _⟩ => show win1_9.index t 0 * 2000 + 1 * (y 0).val = 2000 * t.val + (y 0).val; rw [e0]; omega
    | ⟨1, _⟩ => show win1_9.index t 1 * 128 + 1 * (y 1).val = (y 1).val; rw [e1]; omega
  rw [View.read_apply, hR]
  show Cert.Spec.upd (R := 2000) _ _ _ _ _ _ _ _ _ ((cfg1.win 9).xinj (grid1.coords t) y) = _
  rw [hL, Cert.Spec.upd_ix2]
  show _ = Cert.Spec.upd (R := 50000) _ _ _ _ _ _ _ _ _ (ix2 _ _)
  rw [Cert.Spec.upd_ix2]
  exact updAt_rows _ _ _ _ _ _ _ _ _ _ _ _ _
    (fun i => iblk0_apply V c t _ i _ rfl) (fun i => iblk1_apply V c t _ i _ rfl) _

/-- An index of the result array is in point t's block iff its row is one of the block's. -/
theorem mem_blk (t : Fin cfg1.N) (i : S50000x128.Idx) :
    i ∈ ((cfg1.win 9).blk t).view.set ↔ ∀ a : Fin 2, win1_9.index t a * S2000x128.size a ≤ (i a).val
      ∧ (i a).val < win1_9.index t a * S2000x128.size a + S2000x128.size a := by
  show i ∈ ((View.whole main_v21).slice (win1_9.rect t)).set ↔ _
  rw [View.set_slice_whole, Rect.mem_set_unit]
  exact Iff.rfl

/-- Every row lies in the block of the point its row index divided by 2000 names, and every point writes back. -/
theorem cover (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  refine ⟨⟨(i 0).val / 2000, by show (i 0).val / 2000 < 25; omega⟩, flush1_9 _, ?_⟩
  rw [mem_blk]
  obtain ⟨-, -, ⟨e0, e1⟩, -⟩ := idx_facts ⟨(i 0).val / 2000, by show (i 0).val / 2000 < 25; omega⟩
  intro a
  match a with
  | ⟨0, _⟩ =>
    show win1_9.index _ 0 * 2000 ≤ (i 0).val ∧ (i 0).val < win1_9.index _ 0 * 2000 + 2000
    rw [e0]
    show (i 0).val / 2000 * 2000 ≤ (i 0).val ∧ (i 0).val < (i 0).val / 2000 * 2000 + 2000
    omega
  | ⟨1, _⟩ =>
    show win1_9.index _ 1 * 128 ≤ (i 1).val ∧ (i 1).val < win1_9.index _ 1 * 128 + 128
    rw [e1]
    omega

/-- After the region the result array holds the update function of the region's operand arrays. -/
theorem final (c : Dev nD) :
    (dat1 (F := Ideal) V c).arrAt 9 cfg1.N
      = Cert.Spec.upd (R := 50000) (V c main_arg0) (V c main_v14) (V c main_v15) (V c main_v16) (V c main_v17) (V c main_arg9)
          (V c main_v18) (V c main_v19) (V c main_v20) :=
  (dat1 V c).arrAt_eq_of_cover 9 (G V c) (fun t _ => flushed_eq V c t) cover

end Cert.KernelIdeal.Upd

end
-- ==== Proof.RefMsg.lean ====
/-
  The reference's messages.  It concatenates the gathered source rows, the gathered destination rows and the edge rows
  into rows of 384 numbers and multiplies by the whole 384×128 weight matrix; a sum over 384 = 128 + 128 + 128 terms is
  the sum of its three bands, so hidden unit k is the message network's, and the rest of the network is the same
  operations in the same order.
-/
import proofs.«402153_j13048110646129_2_alg».proof.Proof.RefRead
import proofs.«402153_j13048110646129_2_alg».proof.Proof.Spec
import proofs.«402153_j13048110646129_2_alg».proof.Proof.LibDense
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.HandMsg

open Cert.ReferenceIdeal Cert.ReferenceIdeal.Gen Cert.ReferenceIdeal.ReadP
open Idealize.ShloMosaic Idealize.ShloMosaic.TcCoe Idealize.ShloMosaic.ValueIdx Idealize.SL.Sem

/-! ## A sum over 384 terms in three bands -/

/-- A sum over 384 = 128 + 128 + 128 terms is the sum of its three bands; only associativity of addition is used. -/
theorem sum_bands {α : Type} [AddCommMonoid α] (f : Fin 384 → α) :
    ∑ k : Fin 384, f k
      = ((∑ i : Fin 128, f ⟨i.val, by have h := i.isLt; omega⟩)
          + (∑ i : Fin 128, f ⟨128 + i.val, by have h := i.isLt; omega⟩))
        + (∑ i : Fin 128, f ⟨256 + i.val, by have h := i.isLt; omega⟩) := by
  refine (Cert.LibDense.sum_split2 256 128 f).trans ?_
  refine congrArg₂ (· + ·) ?_ rfl
  exact Cert.LibDense.sum_split2 128 128 (fun i : Fin 256 => f (Fin.castAdd 128 i))

/-! ## The concatenated row, column by column -/

/-- An array of 600000 rows of 128 numbers. -/
abbrev Arr : Type := (⟨S600000x128, .f32⟩ : BufTy).Contents (Elt Ideal)

/-- Columns 0 … 127 of the concatenated row are the first piece's. -/
theorem cat_band0 (y0 y1 y2 : Arr) (h : Shape.Concatenates [S600000x128, S600000x128, S600000x128] S600000x384 1)
    (e : Fin 600000) (k : Fin 128) :
    concatenate S600000x384 1 [⟨S600000x128, y0⟩, ⟨S600000x128, y1⟩, ⟨S600000x128, y2⟩] h
        (ix2 e ⟨k.val, by have hk := k.isLt; omega⟩) = y0 (ix2 e k) := by
  refine concatenate_apply_piece 1 [⟨S600000x128, y0⟩, ⟨S600000x128, y1⟩, ⟨S600000x128, y2⟩] h _ 0 (by simp) S600000x128 y0 rfl rfl 0 rfl (ix2 e k) ?_ ?_
  · intro b hb
    match b with
    | ⟨0, _⟩ => rfl
    | ⟨1, _⟩ => exact absurd rfl hb
  · exact Nat.zero_add _

/-- Columns 128 … 255 of the concatenated row are the second piece's. -/
theorem cat_band1 (y0 y1 y2 : Arr) (h : Shape.Concatenates [S600000x128, S600000x128, S600000x128] S600000x384 1)
    (e : Fin 600000) (k : Fin 128) :
    concatenate S600000x384 1 [⟨S600000x128, y0⟩, ⟨S600000x128, y1⟩, ⟨S600000x128, y2⟩] h
        (ix2 e ⟨128 + k.val, by have hk := k.isLt; omega⟩) = y1 (ix2 e k) := by
  refine concatenate_apply_piece 1 [⟨S600000x128, y0⟩, ⟨S600000x128, y1⟩, ⟨S600000x128, y2⟩] h _ 1 (by simp) S600000x128 y1 rfl rfl 128 rfl (ix2 e k) ?_ ?_
  · intro b hb
    match b with
    | ⟨0, _⟩ => rfl
    | ⟨1, _⟩ => exact absurd rfl hb
  · rfl

/-- Columns 256 … 383 of the concatenated row are the third piece's. -/
theorem cat_band2 (y0 y1 y2 : Arr) (h : Shape.Concatenates [S600000x128, S600000x128, S600000x128] S600000x384 1)
    (e : Fin 600000) (k : Fin 128) :
    concatenate S600000x384 1 [⟨S600000x128, y0⟩, ⟨S600000x128, y1⟩, ⟨S600000x128, y2⟩] h
        (ix2 e ⟨256 + k.val, by have hk := k.isLt; omega⟩) = y2 (ix2 e k) := by
  refine concatenate_apply_piece 1 [⟨S600000x128, y0⟩, ⟨S600000x128, y1⟩, ⟨S600000x128, y2⟩] h _ 2 (by simp) S600000x128 y2 rfl rfl 256 rfl (ix2 e k) ?_ ?_
  · intro b hb
    match b with
    | ⟨0, _⟩ => rfl
    | ⟨1, _⟩ => exact absurd rfl hb
  · rfl

/-! ## The reference's stages at an entry -/

section Stages
variable (x0 : (⟨S50000x128, .f32⟩ : BufTy).Contents (Elt Ideal)) (x1 : (⟨S600000x128, .f32⟩ : BufTy).Contents (Elt Ideal))
  (x2 : (⟨S2x600000, .i32⟩ : BufTy).Contents (Elt Ideal)) (x3 : (⟨S384x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal))

/-- Columns 0 … 127 of the concatenated row e are the gathered source row. -/
theorem v18_band0 (e : Fin 600000) (k : Fin 128) :
    val_main_v18 (F := Ideal) x0 x1 x2 (ix2 e ⟨k.val, by have hk := k.isLt; omega⟩)
      = val_main_v10 (F := Ideal) x0 x2 (ix2 e k) := by
  unfold val_main_v18
  exact cat_band0 _ _ _ _ e k

/-- Columns 128 … 255 of the concatenated row e are the gathered destination row. -/
theorem v18_band1 (e : Fin 600000) (k : Fin 128) :
    val_main_v18 (F := Ideal) x0 x1 x2 (ix2 e ⟨128 + k.val, by have hk := k.isLt; omega⟩)
      = val_main_v17 (F := Ideal) x0 x2 (ix2 e k) := by
  unfold val_main_v18
  exact cat_band1 _ _ _ _ e k

/-- Columns 256 … 383 of the concatenated row e are the edge row. -/
theorem v18_band2 (e : Fin 600000) (k : Fin 128) :
    val_main_v18 (F := Ideal) x0 x1 x2 (ix2 e ⟨256 + k.val, by have hk := k.isLt; omega⟩) = x1 (ix2 e k) := by
  unfold val_main_v18
  exact cat_band2 _ _ _ _ e k

/-- Row i of the first band of a matrix is its row i. -/
theorem band_zero {K : Nat} (h : 0 + 128 ≤ K) (W : Cert.Spec.Mat K 128) (i k : Fin 128) :
    Cert.Spec.band 0 h W (ix2 i k) = W (ix2 ⟨i.val, by have hi := i.isLt; omega⟩ k) :=
  congrArg W (funext fun a => by
    match a with
    | ⟨0, _⟩ => exact Fin.ext (Nat.zero_add _)
    | ⟨1, _⟩ => rfl)

/-- Hidden unit k at row e before the activation: the product with the whole weight matrix, band by band, plus the
    bias. -/
theorem hid_eq (e : Fin 600000) (k : Fin 128) :
    val_main_v22 (F := Ideal) x0 x1 x2 x3 x4 (ix2 e k)
      = Cert.Spec.msgHid (R := 600000) (val_main_v10 (F := Ideal) x0 x2) (val_main_v17 (F := Ideal) x0 x2) x1
          (Cert.Spec.band 0 (by decide) x3) (Cert.Spec.band 128 (by decide) x3) (Cert.Spec.band 256 (by decide) x3)
          (Cert.Spec.asRow x4) e k := by
  have hl : ∀ m : Fin 384, lidx_main_v19 (ix2 e k) m = ix2 e m := fun m =>
    funext fun a => Fin.ext (by match a with | ⟨0, _⟩ => rfl | ⟨1, _⟩ => rfl)
  have hr : ∀ m : Fin 384, ridx_main_v19 (ix2 e k) m = ix2 m k := fun m =>
    funext fun a => Fin.ext (by match a with | ⟨0, _⟩ => rfl | ⟨1, _⟩ => rfl)
  have hb : idx_main_v20 (idx_main_v21 (ix2 e k)) = ix1 k :=
    funext fun a => Fin.ext (by match a with | ⟨0, _⟩ => rfl)
  rw [val_main_v22_apply, val_main_v19_apply, val_main_v21_apply, val_main_v20_apply, hb, sum_bands]
  simp only [hl, hr, v18_band0, v18_band1, v18_band2]
  unfold Cert.Spec.msgHid
  simp only [band_zero]
  rfl

/-- The activation: x times 1 / (1 + e^(−x)). -/
theorem act_eq (e : Fin 600000) (k : Fin 128) :
    val_main_v23 (F := Ideal) x0 x1 x2 x3 x4 (ix2 e k)
      = Cert.Spec.silu (val_main_v22 (F := Ideal) x0 x1 x2 x3 x4 (ix2 e k)) := by
  rw [val_main_v23_apply, val_main_call0_v5_apply, val_main_call0_v4_apply, val_main_call0_cst_0_apply,
    val_main_call0_v3_apply, val_main_call0_v2_apply, val_main_call0_cst_apply, val_main_call0_v1_apply,
    val_main_call0_v0_apply]
  generalize val_main_v22 (F := Ideal) x0 x1 x2 x3 x4 (ix2 e k) = z
  simp only [Ideal.mulf_def, Ideal.hostDivf_def, Ideal.addf_def, Ideal.hostUnary_exp_def, Ideal.hostNegf_def,
    Ideal.negf_def, Ideal.ofBits_def, Ideal.ofBits_one_f32]
  rfl

end Stages

/-- The reference's message array is the message function of its gathered rows, the edge rows, the three bands of the
    first weight matrix and the remaining parameters. -/
theorem ref_msg (x0 : (⟨S50000x128, .f32⟩ : BufTy).Contents (Elt Ideal)) (x1 : (⟨S600000x128, .f32⟩ : BufTy).Contents (Elt Ideal)) (x2 : (⟨S2x600000, .i32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v27 (F := Ideal) x0 x1 x2 x3 x4 x5 x6
      = Cert.Spec.msg (R := 600000) (val_main_v10 (F := Ideal) x0 x2) (val_main_v17 (F := Ideal) x0 x2) x1
          (Cert.Spec.band 0 (by decide) x3) (Cert.Spec.band 128 (by decide) x3) (Cert.Spec.band 256 (by decide) x3)
          (Cert.Spec.asRow x4) x5 (Cert.Spec.asRow x6) := by
  funext i
  obtain ⟨e, j, rfl⟩ : ∃ (e : Fin 600000) (j : Fin 128), i = ix2 e j := ⟨i 0, i 1, eq_ix2 i⟩
  have hl : ∀ m : Fin 128, lidx_main_v24 (ix2 e j) m = ix2 e m := fun m =>
    funext fun a => Fin.ext (by match a with | ⟨0, _⟩ => rfl | ⟨1, _⟩ => rfl)
  have hr : ∀ m : Fin 128, ridx_main_v24 (ix2 e j) m = ix2 m j := fun m =>
    funext fun a => Fin.ext (by match a with | ⟨0, _⟩ => rfl | ⟨1, _⟩ => rfl)
  have hb : idx_main_v25 (idx_main_v26 (ix2 e j)) = ix1 j :=
    funext fun a => Fin.ext (by match a with | ⟨0, _⟩ => rfl)
  rw [Cert.Spec.msg_ix2, val_main_v27_apply, val_main_v24_apply, val_main_v26_apply, val_main_v25_apply, hb]
  simp only [hl, hr, act_eq, hid_eq]
  rfl

end Cert.ReferenceIdeal.HandMsg

end
-- ==== Proof.RefUpd.lean ====
/-
  The reference's node update.  It concatenates the node features and the aggregated messages into rows of 256 numbers and
  multiplies by the whole 256×128 weight matrix; a sum over 256 = 128 + 128 terms is the sum of its two bands, so hidden
  unit k is the update network's.  The residual, the two means over the 128 features, the reciprocal square root and the
  scale and shift are the same operations in the same order.
-/
import proofs.«402153_j13048110646129_2_alg».proof.Proof.RefRead
import proofs.«402153_j13048110646129_2_alg».proof.Proof.Spec
import proofs.«402153_j13048110646129_2_alg».proof.Proof.LibDense
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.HandUpd

open Cert.ReferenceIdeal Cert.ReferenceIdeal.Gen Cert.ReferenceIdeal.ReadP
open Idealize.ShloMosaic Idealize.ShloMosaic.TcCoe Idealize.ShloMosaic.ValueIdx Idealize.SL.Sem

/-! ## The index functions of the generated reading, at a row and a column -/

/-- The second product reads row n of its left operand at the contracted column. -/
theorem lidx37_ix2 (n : Fin 50000) (j k : Fin 128) : lidx_main_v37 (ix2 n j) k = ix2 n k :=
  funext fun a => Fin.ext (by match a with | ⟨0, _⟩ => rfl | ⟨1, _⟩ => rfl)

/-- The second product reads column j of its right operand at the contracted row. -/
theorem ridx37_ix2 (n : Fin 50000) (j k : Fin 128) : ridx_main_v37 (ix2 n j) k = ix2 k j :=
  funext fun a => Fin.ext (by match a with | ⟨0, _⟩ => rfl | ⟨1, _⟩ => rfl)

/-- A row sum over the features reads row n at each column. -/
theorem idx42_ix1 (n : Fin 50000) (k : Fin 128) : idx_main_v42 (ix1 n) k = ix2 n k :=
  funext fun a => Fin.ext (by match a with | ⟨0, _⟩ => rfl | ⟨1, _⟩ => rfl)

theorem idx49_ix1 (n : Fin 50000) (k : Fin 128) : idx_main_v49 (ix1 n) k = ix2 n k :=
  funext fun a => Fin.ext (by match a with | ⟨0, _⟩ => rfl | ⟨1, _⟩ => rfl)

/-- A column of row statistics, at its one column, reads the statistic of the row. -/
theorem idx43_ix2 (n : Fin 50000) : idx_main_v43 (ix2 n (0 : Fin 1)) = ix1 n :=
  funext fun a => Fin.ext (by match a with | ⟨0, _⟩ => rfl)

theorem idx50_ix2 (n : Fin 50000) : idx_main_v50 (ix2 n (0 : Fin 1)) = ix1 n :=
  funext fun a => Fin.ext (by match a with | ⟨0, _⟩ => rfl)

/-- A row statistic spread over the 128 columns reads the one column of the statistics. -/
theorem idx46_ix2 (n : Fin 50000) (j : Fin 128) : idx_main_v46 (ix2 n j) = ix2 n (0 : Fin 1) :=
  funext fun a => Fin.ext (by match a with | ⟨0, _⟩ => rfl | ⟨1, _⟩ => rfl)

theorem idx53_ix2 (n : Fin 50000) (j : Fin 128) : idx_main_v53 (ix2 n j) = ix2 n (0 : Fin 1) :=
  funext fun a => Fin.ext (by match a with | ⟨0, _⟩ => rfl | ⟨1, _⟩ => rfl)

theorem idx58_ix2 (n : Fin 50000) (j : Fin 128) : idx_main_v58 (ix2 n j) = ix2 n (0 : Fin 1) :=
  funext fun a => Fin.ext (by match a with | ⟨0, _⟩ => rfl | ⟨1, _⟩ => rfl)

/-- A vector of 128 numbers spread over the rows, at column j, is the one-row matrix at column j. -/
theorem row_at (b : (⟨S128, .f32⟩ : BufTy).Contents (Elt Ideal)) (i : S1x128.Idx → S128.Idx) (i' : S50000x128.Idx → S1x128.Idx) (n : Fin 50000) (j : Fin 128)
    (hi : ∀ c : S1x128.Idx, (i c 0).val = (c 1).val) (hi' : (i' (ix2 n j) 1).val = j.val) :
    b (i (i' (ix2 n j))) = Cert.Spec.asRow b (ix2 (0 : Fin 1) j) :=
  congrArg b (funext fun a => Fin.ext (by match a with | ⟨0, _⟩ => exact (hi _).trans hi'))

/-! ## The concatenated rows and the two bands of the first weight matrix -/

/-- Column i < 128 of a concatenated row is the node feature i. -/
theorem cat_lo (a b : (⟨S50000x128, .f32⟩ : BufTy).Contents (Elt Ideal)) (h : Shape.Concatenates [S50000x128, S50000x128] S50000x256 1)
    (n : Fin 50000) (j i : Fin 128) :
    concatenate S50000x256 1 [⟨S50000x128, a⟩, ⟨S50000x128, b⟩] h (lidx_main_v32 (ix2 n j) (Fin.castAdd 128 i)) = a (ix2 n i) :=
  concatenate_pair_apply_left 1 a b h _ rfl (ix2 n i) (fun c => by match c with | ⟨0, _⟩ => rfl | ⟨1, _⟩ => rfl)

/-- Column 128 + i of a concatenated row is the aggregated message's feature i. -/
theorem cat_hi (a b : (⟨S50000x128, .f32⟩ : BufTy).Contents (Elt Ideal)) (h : Shape.Concatenates [S50000x128, S50000x128] S50000x256 1)
    (n : Fin 50000) (j i : Fin 128) :
    concatenate S50000x256 1 [⟨S50000x128, a⟩, ⟨S50000x128, b⟩] h (lidx_main_v32 (ix2 n j) (Fin.natAdd 128 i)) = b (ix2 n i) :=
  concatenate_pair_apply_right 1 a b h _ rfl rfl (ix2 n i)
    (fun c hc => by
      match c, hc with
      | ⟨0, _⟩, _ => rfl
      | ⟨1, _⟩, hc => exact absurd (Fin.ext rfl) hc)
    (by show i.val + 128 = 128 + i.val; omega)

/-- Row i < 128 of the weight matrix is row i of its first band. -/
theorem w_lo (w : (⟨S256x128, .f32⟩ : BufTy).Contents (Elt Ideal)) (n : Fin 50000) (j i : Fin 128) :
    w (ridx_main_v32 (ix2 n j) (Fin.castAdd 128 i)) = Cert.Spec.band 0 (by decide) w (ix2 i j) :=
  congrArg w (funext fun a => Fin.ext (by
    match a with
    | ⟨0, _⟩ => show i.val = 0 + i.val; omega
    | ⟨1, _⟩ => rfl))

/-- Row 128 + i of the weight matrix is row i of its second band. -/
theorem w_hi (w : (⟨S256x128, .f32⟩ : BufTy).Contents (Elt Ideal)) (n : Fin 50000) (j i : Fin 128) :
    w (ridx_main_v32 (ix2 n j) (Fin.natAdd 128 i)) = Cert.Spec.band 128 (by decide) w (ix2 i j) :=
  congrArg w (funext fun a => Fin.ext (by
    match a with
    | ⟨0, _⟩ => rfl
    | ⟨1, _⟩ => rfl))

/-! ## The stages, at row n and column j -/

/-- The first layer before the activation: the sum over the 256 concatenated columns is the sum of the two bands. -/
theorem hid_at (x0 : (⟨S50000x128, .f32⟩ : BufTy).Contents (Elt Ideal)) (x1 : (⟨S600000x128, .f32⟩ : BufTy).Contents (Elt Ideal)) (x2 : (⟨S2x600000, .i32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (n : Fin 50000) (k : Fin 128) :
    val_main_v35 (F := Ideal) x0 x1 x2 x3 x4 x5 x6 x7 x8 (ix2 n k) = Cert.Spec.updHid (R := 50000) x0 (val_main_v30 (F := Ideal) x0 x1 x2 x3 x4 x5 x6) (Cert.Spec.band 0 (by decide) x7) (Cert.Spec.band 128 (by decide) x7) (Cert.Spec.asRow x8) n k := by
  rw [val_main_v35_apply, val_main_v32_apply, val_main_v34_apply, val_main_v33_apply]
  unfold val_main_v31 Cert.Spec.updHid
  generalize val_main_v30 (F := Ideal) x0 x1 x2 x3 x4 x5 x6 = ag
  rw [Ideal.addf_def]
  congr 1
  · refine (Cert.LibDense.sum_split2 128 128 _).trans ?_
    congr 1
    · exact Finset.sum_congr rfl fun i _ => by rw [cat_lo, w_lo x7]
    · exact Finset.sum_congr rfl fun i _ => by rw [cat_hi, w_hi x7]
  · exact row_at x8 idx_main_v33 idx_main_v34 n k (fun c => rfl) rfl

/-- The activation: the argument times one over one plus the exponential of its negation. -/
theorem act_at (x0 : (⟨S50000x128, .f32⟩ : BufTy).Contents (Elt Ideal)) (x1 : (⟨S600000x128, .f32⟩ : BufTy).Contents (Elt Ideal)) (x2 : (⟨S2x600000, .i32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (n : Fin 50000) (k : Fin 128) :
    val_main_v36 (F := Ideal) x0 x1 x2 x3 x4 x5 x6 x7 x8 (ix2 n k) = Cert.Spec.silu (val_main_v35 (F := Ideal) x0 x1 x2 x3 x4 x5 x6 x7 x8 (ix2 n k)) := by
  rw [val_main_v36_apply, val_main_call1_v5_apply, val_main_call1_v4_apply, val_main_call1_cst_0_apply,
    val_main_call1_v3_apply, val_main_call1_v2_apply, val_main_call1_cst_apply, val_main_call1_v1_apply,
    val_main_call1_v0_apply]
  generalize val_main_v35 (F := Ideal) x0 x1 x2 x3 x4 x5 x6 x7 x8 (ix2 n k) = t
  rw [Ideal.mulf_def, Ideal.hostDivf_def, Ideal.addf_def, Ideal.ofBits_def, Ideal.ofBits_one_f32, Ideal.hostUnary_exp_def,
    Ideal.hostNegf_def, Ideal.negf_def]
  rfl

/-- The residual row. -/
theorem resid_at (x0 : (⟨S50000x128, .f32⟩ : BufTy).Contents (Elt Ideal)) (x1 : (⟨S600000x128, .f32⟩ : BufTy).Contents (Elt Ideal)) (x2 : (⟨S2x600000, .i32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (n : Fin 50000) (j : Fin 128) :
    val_main_v41 (F := Ideal) x0 x1 x2 x3 x4 x5 x6 x7 x8 x9 x10 (ix2 n j) = Cert.Spec.resid (R := 50000) x0 (val_main_v30 (F := Ideal) x0 x1 x2 x3 x4 x5 x6) (Cert.Spec.band 0 (by decide) x7) (Cert.Spec.band 128 (by decide) x7) (Cert.Spec.asRow x8) x9 (Cert.Spec.asRow x10) n j := by
  rw [val_main_v41_apply, val_main_v40_apply, val_main_v37_apply, val_main_v39_apply, val_main_v38_apply,
    row_at x10 idx_main_v38 idx_main_v39 n j (fun c => rfl) rfl]
  unfold Cert.Spec.resid
  rw [Ideal.addf_def, Ideal.addf_def]
  refine congrArg (fun s => x0 (ix2 n j) + (s + _)) (Finset.sum_congr rfl fun k _ => ?_)
  rw [lidx37_ix2, ridx37_ix2, act_at, hid_at]

/-- The mean of the residual row. -/
theorem mean_at (x0 : (⟨S50000x128, .f32⟩ : BufTy).Contents (Elt Ideal)) (x1 : (⟨S600000x128, .f32⟩ : BufTy).Contents (Elt Ideal)) (x2 : (⟨S2x600000, .i32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (n : Fin 50000) :
    val_main_v45 (F := Ideal) x0 x1 x2 x3 x4 x5 x6 x7 x8 x9 x10 (ix2 n (0 : Fin 1)) = Cert.Spec.mean (R := 50000) x0 (val_main_v30 (F := Ideal) x0 x1 x2 x3 x4 x5 x6) (Cert.Spec.band 0 (by decide) x7) (Cert.Spec.band 128 (by decide) x7) (Cert.Spec.asRow x8) x9 (Cert.Spec.asRow x10) n := by
  rw [val_main_v45_apply, val_main_v43_apply, idx43_ix2, val_main_v42_apply, val_main_v44_apply, val_main_cst_4_apply,
    val_main_cst_3_apply]
  unfold Cert.Spec.mean Cert.Spec.c128
  rw [Ideal.hostDivf_def, Ideal.ofBits_def, Ideal.ofBits_def, Ideal.ofBits_zero_f32, zero_add]
  refine congrArg (fun s => Ideal.div s _) (Finset.sum_congr rfl fun k _ => ?_)
  rw [idx42_ix1, resid_at]

/-- The deviation of a residual from the mean of its row, as the reference forms it the first time. -/
theorem dev_at (x0 : (⟨S50000x128, .f32⟩ : BufTy).Contents (Elt Ideal)) (x1 : (⟨S600000x128, .f32⟩ : BufTy).Contents (Elt Ideal)) (x2 : (⟨S2x600000, .i32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (n : Fin 50000) (j : Fin 128) :
    val_main_v47 (F := Ideal) x0 x1 x2 x3 x4 x5 x6 x7 x8 x9 x10 (ix2 n j)
      = Cert.Spec.resid (R := 50000) x0 (val_main_v30 (F := Ideal) x0 x1 x2 x3 x4 x5 x6) (Cert.Spec.band 0 (by decide) x7) (Cert.Spec.band 128 (by decide) x7) (Cert.Spec.asRow x8) x9 (Cert.Spec.asRow x10) n j - Cert.Spec.mean (R := 50000) x0 (val_main_v30 (F := Ideal) x0 x1 x2 x3 x4 x5 x6) (Cert.Spec.band 0 (by decide) x7) (Cert.Spec.band 128 (by decide) x7) (Cert.Spec.asRow x8) x9 (Cert.Spec.asRow x10) n := by
  rw [val_main_v47_apply, val_main_v46_apply, idx46_ix2, mean_at, resid_at, Ideal.subf_def]

/-- The deviation as the reference forms it the second time. -/
theorem dev2_at (x0 : (⟨S50000x128, .f32⟩ : BufTy).Contents (Elt Ideal)) (x1 : (⟨S600000x128, .f32⟩ : BufTy).Contents (Elt Ideal)) (x2 : (⟨S2x600000, .i32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (n : Fin 50000) (j : Fin 128) :
    val_main_v54 (F := Ideal) x0 x1 x2 x3 x4 x5 x6 x7 x8 x9 x10 (ix2 n j)
      = Cert.Spec.resid (R := 50000) x0 (val_main_v30 (F := Ideal) x0 x1 x2 x3 x4 x5 x6) (Cert.Spec.band 0 (by decide) x7) (Cert.Spec.band 128 (by decide) x7) (Cert.Spec.asRow x8) x9 (Cert.Spec.asRow x10) n j - Cert.Spec.mean (R := 50000) x0 (val_main_v30 (F := Ideal) x0 x1 x2 x3 x4 x5 x6) (Cert.Spec.band 0 (by decide) x7) (Cert.Spec.band 128 (by decide) x7) (Cert.Spec.asRow x8) x9 (Cert.Spec.asRow x10) n := by
  rw [val_main_v54_apply, val_main_v53_apply, idx53_ix2, mean_at, resid_at, Ideal.subf_def]

/-- The variance of the residual row. -/
theorem var_at (x0 : (⟨S50000x128, .f32⟩ : BufTy).Contents (Elt Ideal)) (x1 : (⟨S600000x128, .f32⟩ : BufTy).Contents (Elt Ideal)) (x2 : (⟨S2x600000, .i32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (n : Fin 50000) :
    val_main_v52 (F := Ideal) x0 x1 x2 x3 x4 x5 x6 x7 x8 x9 x10 (ix2 n (0 : Fin 1)) = Cert.Spec.var (R := 50000) x0 (val_main_v30 (F := Ideal) x0 x1 x2 x3 x4 x5 x6) (Cert.Spec.band 0 (by decide) x7) (Cert.Spec.band 128 (by decide) x7) (Cert.Spec.asRow x8) x9 (Cert.Spec.asRow x10) n := by
  rw [val_main_v52_apply, val_main_v50_apply, idx50_ix2, val_main_v49_apply, val_main_v51_apply, val_main_cst_6_apply,
    val_main_cst_5_apply]
  unfold Cert.Spec.var Cert.Spec.c128
  rw [Ideal.hostDivf_def, Ideal.ofBits_def, Ideal.ofBits_def, Ideal.ofBits_zero_f32, zero_add]
  refine congrArg (fun s => Ideal.div s _) (Finset.sum_congr rfl fun k _ => ?_)
  rw [idx49_ix1, val_main_v48_apply, dev_at, Ideal.mulf_def]

/-- The reciprocal square root of the variance plus ε. -/
theorem rstd_at (x0 : (⟨S50000x128, .f32⟩ : BufTy).Contents (Elt Ideal)) (x1 : (⟨S600000x128, .f32⟩ : BufTy).Contents (Elt Ideal)) (x2 : (⟨S2x600000, .i32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (n : Fin 50000) :
    val_main_v57 (F := Ideal) x0 x1 x2 x3 x4 x5 x6 x7 x8 x9 x10 (ix2 n (0 : Fin 1))
      = Ideal.rsqrt (Cert.Spec.var (R := 50000) x0 (val_main_v30 (F := Ideal) x0 x1 x2 x3 x4 x5 x6) (Cert.Spec.band 0 (by decide) x7) (Cert.Spec.band 128 (by decide) x7) (Cert.Spec.asRow x8) x9 (Cert.Spec.asRow x10) n + Cert.Spec.ceps) := by
  rw [val_main_v57_apply, val_main_v56_apply, val_main_v55_apply, val_main_cst_7_apply, var_at]
  unfold Cert.Spec.ceps
  rw [Ideal.hostUnary_rsqrt_def, Ideal.addf_def, Ideal.ofBits_def]

/-- The normalised, scaled and shifted row. -/
theorem out_at (x0 : (⟨S50000x128, .f32⟩ : BufTy).Contents (Elt Ideal)) (x1 : (⟨S600000x128, .f32⟩ : BufTy).Contents (Elt Ideal)) (x2 : (⟨S2x600000, .i32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (n : Fin 50000) (j : Fin 128) :
    val_main_v65 (F := Ideal) x0 x1 x2 x3 x4 x5 x6 x7 x8 x9 x10 x11 x12 (ix2 n j)
      = Cert.Spec.updAt (R := 50000) x0 (val_main_v30 (F := Ideal) x0 x1 x2 x3 x4 x5 x6) (Cert.Spec.band 0 (by decide) x7) (Cert.Spec.band 128 (by decide) x7) (Cert.Spec.asRow x8) x9 (Cert.Spec.asRow x10) (Cert.Spec.asRow x11) (Cert.Spec.asRow x12) n j := by
  rw [val_main_v65_apply, val_main_v62_apply, val_main_v59_apply, val_main_v58_apply, idx58_ix2, rstd_at, dev2_at,
    val_main_v61_apply, val_main_v60_apply, val_main_v64_apply, val_main_v63_apply]
  unfold Cert.Spec.updAt
  rw [Ideal.addf_def, Ideal.mulf_def, Ideal.mulf_def, row_at x11 idx_main_v60 idx_main_v61 n j (fun c => rfl) rfl,
    row_at x12 idx_main_v63 idx_main_v64 n j (fun c => rfl) rfl]

/-- The reference's result is the update function of the node features, its aggregated messages, the two bands of the
    first weight matrix and the remaining parameters. -/
theorem ref_upd (x0 : (⟨S50000x128, .f32⟩ : BufTy).Contents (Elt Ideal)) (x1 : (⟨S600000x128, .f32⟩ : BufTy).Contents (Elt Ideal)) (x2 : (⟨S2x600000, .i32⟩ : BufTy).Contents (Elt Ideal)) (x3 : (⟨S384x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128x128, .f32⟩ : BufTy).Contents (Elt Ideal)) (x10 x11 x12 : (⟨S128, .f32⟩ : BufTy).Contents (Elt Ideal)) :
    val_main_v65 (F := Ideal) x0 x1 x2 x3 x4 x5 x6 x7 x8 x9 x10 x11 x12
      = Cert.Spec.upd (R := 50000) x0 (val_main_v30 (F := Ideal) x0 x1 x2 x3 x4 x5 x6)
          (Cert.Spec.band 0 (by decide) x7) (Cert.Spec.band 128 (by decide) x7)
          (Cert.Spec.asRow x8) x9 (Cert.Spec.asRow x10) (Cert.Spec.asRow x11) (Cert.Spec.asRow x12) := by
  funext i
  obtain ⟨n, j, rfl⟩ : ∃ (n : Fin 50000) (j : Fin 128), i = ix2 n j := ⟨i 0, i 1, eq_ix2 i⟩
  rw [Cert.Spec.upd_ix2]
  exact out_at x0 x1 x2 x3 x4 x5 x6 x7 x8 x9 x10 x11 x12 n j

end Cert.ReferenceIdeal.HandUpd

end
-- ==== Proof.Bridge.lean ====
/-
  The kernel program's result is the reference's result, as functions of the same argument arrays.

  The kernel's run ends with the result array at the update function of: the node features; the messages summed onto their
  destination nodes, the messages being the message function of the taken source rows, the taken destination rows and the edge
  rows; and the parameters, cut into bands and laid out as rows.  Under the precondition every node number in the edge list is
  between 0 and 49999, so taking rows is the plain gather.  The reference's result is the same update function of the same
  aggregate of the same message function of the same gathered rows: the two programs gather with the same moved node numbers,
  sum onto the same destinations from the same zero array, and cut the same bands.
-/
import proofs.«402153_j13048110646129_2_alg».proof.Proof.Gen.KernelIdeal.Frame
import proofs.«402153_j13048110646129_2_alg».proof.Proof.RefRead
import proofs.«402153_j13048110646129_2_alg».proof.Proof.Gen.Pre_finite_inputs
import proofs.«402153_j13048110646129_2_alg».proof.Defs
import proofs.«402153_j13048110646129_2_alg».proof.Proof.Spec
import proofs.«402153_j13048110646129_2_alg».proof.Proof.Take
import proofs.«402153_j13048110646129_2_alg».proof.Proof.PreIdx
import proofs.«402153_j13048110646129_2_alg».proof.Proof.Glue
import proofs.«402153_j13048110646129_2_alg».proof.Proof.HostK
import proofs.«402153_j13048110646129_2_alg».proof.Proof.Region0
import proofs.«402153_j13048110646129_2_alg».proof.Proof.Region1
import proofs.«402153_j13048110646129_2_alg».proof.Proof.RefMsg
import proofs.«402153_j13048110646129_2_alg».proof.Proof.RefUpd

noncomputable section

namespace Cert.Bridge

open Idealize.ShloMosaic Idealize.ShloMosaic.TcCoe Idealize.SL.Sem
open Cert.KernelIdeal.Glue Cert.KernelIdeal.Take

/-! ## The two programs' index computations are the same terms -/

section Indices
variable {F : FTy → Type} [FloatOps F]

/-- The moved source node numbers, as a column. -/
theorem wrap_src (x2 : IVec Cert.KernelIdeal.S2x600000 32) :
    wrapIdx (srcIdx x2) = Cert.ReferenceIdeal.ReadP.val_main_v9 (F := F) x2 := rfl
/-- The moved destination node numbers, as a column. -/
theorem wrap_dst (x2 : IVec Cert.KernelIdeal.S2x600000 32) :
    wrapIdx (dstIdx x2) = Cert.ReferenceIdeal.ReadP.val_main_v16 (F := F) x2 := rfl
/-- The destination node numbers as the aggregation takes them: unmoved, as a column. -/
theorem col_dst (x2 : IVec Cert.KernelIdeal.S2x600000 32) :
    broadcastInDim Cert.KernelIdeal.S600000x1 ![0] Cert.KernelIdeal.Facts₀.bcast_S600000_S600000x1_0 (dstIdx x2)
      = Cert.ReferenceIdeal.ReadP.val_main_v29 (F := F) x2 := rfl
/-- The zero array the aggregation starts from. -/
theorem zeros :
    (broadcastInDim Cert.KernelIdeal.S50000x128 ![] Cert.KernelIdeal.Facts₀.bcast_S_S50000x128 (constant Cert.KernelIdeal.S_ .f32 0x00000000#32) : FVec F Cert.KernelIdeal.S50000x128 .f32)
      = Cert.ReferenceIdeal.ReadP.val_main_v28 (F := F) := rfl
/-- The gathers' dimension numbers. -/
theorem gather_dims : Cert.KernelIdeal.gather_S50000x128_S600000x1_S600000x128_1_0_n_n_0_1_1128
    = Cert.ReferenceIdeal.gather_S50000x128_S600000x1_S600000x128_1_0_n_n_0_1_1128 := rfl
/-- The aggregations' dimension numbers. -/
theorem scatter_dims : Cert.KernelIdeal.scatter_S50000x128_S600000x1_S600000x128_1_0_0_1
    = Cert.ReferenceIdeal.scatter_S50000x128_S600000x1_S600000x128_1_0_0_1 := rfl

end Indices

/-! ## The kernel program's result -/

variable (m : (ℓ : Loc Cert.KernelIdeal.nD Cert.KernelIdeal.τ Cert.KernelIdeal.sig) → Buf (Elt Ideal) ℓ)
  (ρ : Dev Cert.KernelIdeal.nD → PrngReg)

set_option maxHeartbeats 4000000 in
/-- Under the precondition the kernel program's result array is the reference's result stage of the same argument arrays. -/
theorem kernel_value (hpre : Cert.Pre_KernelIdeal m) (c : Dev Cert.KernelIdeal.nD) :
    Cert.KernelIdeal.Gen.W7 m ρ c (Proc.devRef .tc Cert.KernelIdeal.main_v21)
      = Cert.ReferenceIdeal.ReadP.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  have hr := Cert.PreIdx.edge_range _ _ _ _ _ _ _ _ _ _ _ _ _ (hpre c)
  have hs := srcIdx_range _ hr
  have hd := dstIdx_range _ hr
  rewrite [Cert.KernelIdeal.HostK.W7_v21, Cert.KernelIdeal.Upd.final]
  rewrite [Cert.KernelIdeal.HostK.V6_arg0, Cert.KernelIdeal.HostK.V6_v14, Cert.KernelIdeal.HostK.V6_v15, Cert.KernelIdeal.HostK.V6_v16, Cert.KernelIdeal.HostK.V6_v17, Cert.KernelIdeal.HostK.V6_arg9, Cert.KernelIdeal.HostK.V6_v18, Cert.KernelIdeal.HostK.V6_v19, Cert.KernelIdeal.HostK.V6_v20]
  rewrite [Cert.KernelIdeal.Msg.final]
  rewrite [Cert.KernelIdeal.HostK.V4_v4, Cert.KernelIdeal.HostK.V4_v5, Cert.KernelIdeal.HostK.V4_arg1, Cert.KernelIdeal.HostK.V4_v6, Cert.KernelIdeal.HostK.V4_v7, Cert.KernelIdeal.HostK.V4_v8, Cert.KernelIdeal.HostK.V4_v9, Cert.KernelIdeal.HostK.V4_arg5, Cert.KernelIdeal.HostK.V4_v10]
  rewrite [takeK_eq_gather (F := Ideal) (m ((c.tc : Thread Cert.KernelIdeal.nD Cert.KernelIdeal.τ).loc Cert.KernelIdeal.main_arg0)) (srcIdx (m ((c.tc : Thread Cert.KernelIdeal.nD Cert.KernelIdeal.τ).loc Cert.KernelIdeal.main_arg2))) hs, takeK_eq_gather (F := Ideal) (m ((c.tc : Thread Cert.KernelIdeal.nD Cert.KernelIdeal.τ).loc Cert.KernelIdeal.main_arg0)) (dstIdx (m ((c.tc : Thread Cert.KernelIdeal.nD Cert.KernelIdeal.τ).loc Cert.KernelIdeal.main_arg2))) hd]
  rewrite [slice3_0, slice3_128, slice3_256, slice7_0, slice7_128]
  rewrite [reshape_row, reshape_row, reshape_row, reshape_row, reshape_row, reshape_row]
  rewrite [Cert.ReferenceIdeal.HandUpd.ref_upd]
  unfold Cert.ReferenceIdeal.ReadP.val_main_v30
  rewrite [Cert.ReferenceIdeal.HandMsg.ref_msg]
  unfold Cert.ReferenceIdeal.ReadP.val_main_v10 Cert.ReferenceIdeal.ReadP.val_main_v17
  rewrite [← wrap_src (F := Ideal), ← wrap_dst (F := Ideal), ← col_dst (F := Ideal), ← zeros (F := Ideal), ← gather_dims, ← scatter_dims]
  rfl

end Cert.Bridge

end
-- ==== Proof.lean ====
/-
  A graph-network layer computed by two tiled regions (the message network over 200 blocks of 3000 edges, the update network
  with residual and layer norm over 25 blocks of 2000 nodes) with the row gathers and the sum of messages onto destination
  nodes between them done by the host, against the same layer written with whole-array operations.

  Over the extended reals the two agree wherever every node number in the edge list is between 0 and 49999 (the precondition;
  outside it the kernel's row reads fill a pattern where the reference's clamp): a change of float format is the identity; a
  matrix product over the concatenated 384 (or 256) features is the sum of the products over its 128-feature bands, which is
  all the kernel's three (or two) partial products are, and uses only associativity of addition; x·σ(x) is the same expression
  on both sides; the sum of messages is one and the same operation applied to equal messages and equal destinations; and the
  layer norm is the same operations in the same order with the same two literal words.  No finiteness of the inputs is used.

  The three frames: the two kernel programs' are the generated frame certificates; the reference's is its run, read back in
  stages, with the result dropped.  The idealization rewrote nothing, so the preservation claim is trivially true.
-/
import proofs.«402153_j13048110646129_2_alg».proof.Defs
import proofs.«402153_j13048110646129_2_alg».proof.Proof.Gen.Kernel
import proofs.«402153_j13048110646129_2_alg».proof.Proof.Gen.Kernel.Frame
import proofs.«402153_j13048110646129_2_alg».proof.Proof.Gen.KernelIdeal
import proofs.«402153_j13048110646129_2_alg».proof.Proof.Gen.KernelIdeal.Frame
import proofs.«402153_j13048110646129_2_alg».proof.Proof.Gen.ReferenceIdeal
import proofs.«402153_j13048110646129_2_alg».proof.Proof.RefRun
import proofs.«402153_j13048110646129_2_alg».proof.Proof.Gen.Pre_finite_inputs
import proofs.«402153_j13048110646129_2_alg».proof.Proof.RunMain
import proofs.«402153_j13048110646129_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both programs end with the result array at the reference's result stage of the (agreeing) argument arrays. -/
theorem algebraic : Cert.algebraic_KernelIdeal_ReferenceIdeal := by
  intro m ρ m' ρ' hpre hagree
  refine ⟨fun c => Cert.ReferenceIdeal.ReadP.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ?_) (Cert.KernelIdeal.RunMain.run_main m ρ)
    exact ⟨(h c).1.trans (Cert.Bridge.kernel_value m ρ hpre c), (h c).2⟩
  · refine (θ_run Cert.ReferenceIdeal.defs _ _).mono (fun r h c => ?_) (Cert.ReferenceIdeal.RunP.run (F := Ideal) m' ρ')
    refine ⟨(h c).1.trans ?_, (h c).2⟩
    obtain ⟨e0, e1, e2, e3, e4, e5, e6, e7, e8, e9, e10, e11, e12⟩ := hagree c
    rw [e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
